-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1200000 32) (main_arg2 : FVec F S64x64 .f32) (main_arg3 : FVec F S64 .f32) (main_arg4 : FVec F S64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x64 : Shape := ⟨2, ![1, 64]⟩
abbrev S10000x64 : Shape := ⟨2, ![10000, 64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩

abbrev nBuf : Space → Nat
  | .hbm => 79
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1x64, .f32⟩
  | .hbm, ⟨7, _⟩ => ⟨S100000x64, .f32⟩
  | .hbm, ⟨8, _⟩ => ⟨S100000, .i32⟩
  | .hbm, ⟨9, _⟩ => ⟨S1x1200000, .i32⟩
  | .hbm, ⟨10, _⟩ => ⟨S1200000, .i32⟩
  | .hbm, ⟨11, _⟩ => ⟨S1300000, .i32⟩
  | .hbm, ⟨12, _⟩ => ⟨S1x1200000, .i32⟩
  | .hbm, ⟨13, _⟩ => ⟨S1200000, .i32⟩
  | .hbm, ⟨14, _⟩ => ⟨S1300000, .i32⟩
  | .hbm, ⟨15, _⟩ => ⟨S_, .f32⟩
  | .hbm, ⟨16, _⟩ => ⟨S1300000, .f32⟩
  | .hbm, ⟨17, _⟩ => ⟨S_, .f32⟩
  | .hbm, ⟨18, _⟩ => ⟨S100000, .f32⟩
  | .hbm, ⟨19, _⟩ => ⟨S1300000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1300000, .i32⟩
  | .hbm, ⟨24, _⟩ => ⟨S1300000, .i1⟩
  | .hbm, ⟨25, _⟩ => ⟨S_, .i32⟩
  | .hbm, ⟨26, _⟩ => ⟨S1300000, .i32⟩
  | .hbm, ⟨27, _⟩ => ⟨S1300000, .i32⟩
  | .hbm, ⟨28, _⟩ => ⟨S1300000, .i32⟩
  | .hbm, ⟨29, _⟩ => ⟨S1300000x1, .i32⟩
  | .hbm, ⟨30, _⟩ => ⟨S1300000, .f32⟩
  | .hbm, ⟨31, _⟩ => ⟨S_, .i32⟩
  | .hbm, ⟨32, _⟩ => ⟨S1300000, .i32⟩
  | .hbm, ⟨33, _⟩ => ⟨S1300000, .i1⟩
  | .hbm, ⟨34, _⟩ => ⟨S_, .i32⟩
  | .hbm, ⟨35, _⟩ => ⟨S1300000, .i32⟩
  | .hbm, ⟨36, _⟩ => ⟨S1300000, .i32⟩
  | .hbm, ⟨37, _⟩ => ⟨S1300000, .i32⟩
  | .hbm, ⟨38, _⟩ => ⟨S1300000x1, .i32⟩
  | .hbm, ⟨39, _⟩ => ⟨S1300000, .f32⟩
  | .hbm, ⟨40, _⟩ => ⟨S1300000, .f32⟩
  | .hbm, ⟨41, _⟩ => ⟨S_, .i32⟩
  | .hbm, ⟨42, _⟩ => ⟨S1300000, .i32⟩
  | .hbm, ⟨43, _⟩ => ⟨S1300000, .i1⟩
  | .hbm, ⟨44, _⟩ => ⟨S_, .i32⟩
  | .hbm, ⟨45, _⟩ => ⟨S1300000, .i32⟩
  | .hbm, ⟨46, _⟩ => ⟨S1300000, .i32⟩
  | .hbm, ⟨47, _⟩ => ⟨S1300000, .i32⟩
  | .hbm, ⟨48, _⟩ => ⟨S1300000x1, .i32⟩
  | .hbm, ⟨49, _⟩ => ⟨S1300000x64, .f32⟩
  | .hbm, ⟨50, _⟩ => ⟨S1300000x1, .f32⟩
  | .hbm, ⟨51, _⟩ => ⟨S1300000x64, .f32⟩
  | .hbm, ⟨52, _⟩ => ⟨S1300000x64, .f32⟩
  | .hbm, ⟨53, _⟩ => ⟨S_, .f32⟩
  | .hbm, ⟨54, _⟩ => ⟨S100000x64, .f32⟩
  | .hbm, ⟨55, _⟩ => ⟨S1300000x1, .i32⟩
  | .hbm, ⟨56, _⟩ => ⟨S100000x64, .f32⟩
  | .hbm, ⟨57, _⟩ => ⟨S1x64, .f32⟩
  | .hbm, ⟨58, _⟩ => ⟨S1x64, .f32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S64, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S64, .f32⟩
  | .hbm, ⟨73, _⟩ => ⟨S64, .f32⟩
  | .hbm, ⟨74, _⟩ => ⟨S64, .f32⟩
  | .hbm, ⟨75, _⟩ => ⟨S64, .f32⟩
  | .hbm, ⟨76, _⟩ => ⟨S1x64, .f32⟩
  | .hbm, ⟨77, _⟩ => ⟨S1x64, .f32⟩
  | .hbm, ⟨78, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S1x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42_0 : Ref sig .tc := ⟨.hbm, 57, rfl⟩
abbrev main_v42_1 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S10000x64_S10000x64 : S10000x64.ShapeCasts S10000x64
  reduces_S10000x64_S64 : S10000x64.Reduces [0] S64
  shapeCasts_S1x64_S64 : S1x64.ShapeCasts S64
  bcast_S_S64 : S_.BroadcastsInDim S64 (![] : Fin 0 → Fin S64.rank)
  dot_S10000x64_S64x64_S10000x64_1_0_0_1_n_n_wf : DotDims.WF S10000x64 S64x64 S10000x64 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x64 : Shape := ⟨2, ![1, 64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩

abbrev nBuf : Space → Nat
  | .hbm => 96
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S100000, .i32⟩
  | .hbm, ⟨11, _⟩ => ⟨S1x1200000, .i32⟩
  | .hbm, ⟨12, _⟩ => ⟨S1200000, .i32⟩
  | .hbm, ⟨13, _⟩ => ⟨S1300000, .i32⟩
  | .hbm, ⟨14, _⟩ => ⟨S1x1200000, .i32⟩
  | .hbm, ⟨15, _⟩ => ⟨S1200000, .i32⟩
  | .hbm, ⟨16, _⟩ => ⟨S1300000, .i32⟩
  | .hbm, ⟨17, _⟩ => ⟨S_, .f32⟩
  | .hbm, ⟨18, _⟩ => ⟨S1300000, .f32⟩
  | .hbm, ⟨19, _⟩ => ⟨S_, .f32⟩
  | .hbm, ⟨20, _⟩ => ⟨S100000, .f32⟩
  | .hbm, ⟨21, _⟩ => ⟨S1300000x1, .i32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1300000, .i32⟩
  | .hbm, ⟨26, _⟩ => ⟨S1300000, .i1⟩
  | .hbm, ⟨27, _⟩ => ⟨S_, .i32⟩
  | .hbm, ⟨28, _⟩ => ⟨S1300000, .i32⟩
  | .hbm, ⟨29, _⟩ => ⟨S1300000, .i32⟩
  | .hbm, ⟨30, _⟩ => ⟨S1300000, .i32⟩
  | .hbm, ⟨31, _⟩ => ⟨S1300000x1, .i32⟩
  | .hbm, ⟨32, _⟩ => ⟨S1300000, .f32⟩
  | .hbm, ⟨33, _⟩ => ⟨S_, .i32⟩
  | .hbm, ⟨34, _⟩ => ⟨S1300000, .i32⟩
  | .hbm, ⟨35, _⟩ => ⟨S1300000, .i1⟩
  | .hbm, ⟨36, _⟩ => ⟨S_, .i32⟩
  | .hbm, ⟨37, _⟩ => ⟨S1300000, .i32⟩
  | .hbm, ⟨38, _⟩ => ⟨S1300000, .i32⟩
  | .hbm, ⟨39, _⟩ => ⟨S1300000, .i32⟩
  | .hbm, ⟨40, _⟩ => ⟨S1300000x1, .i32⟩
  | .hbm, ⟨41, _⟩ => ⟨S1300000, .f32⟩
  | .hbm, ⟨42, _⟩ => ⟨S1300000, .f32⟩
  | .hbm, ⟨43, _⟩ => ⟨S_, .i32⟩
  | .hbm, ⟨44, _⟩ => ⟨S1300000, .i32⟩
  | .hbm, ⟨45, _⟩ => ⟨S1300000, .i1⟩
  | .hbm, ⟨46, _⟩ => ⟨S_, .i32⟩
  | .hbm, ⟨47, _⟩ => ⟨S1300000, .i32⟩
  | .hbm, ⟨48, _⟩ => ⟨S1300000, .i32⟩
  | .hbm, ⟨49, _⟩ => ⟨S1300000, .i32⟩
  | .hbm, ⟨50, _⟩ => ⟨S1300000x1, .i32⟩
  | .hbm, ⟨51, _⟩ => ⟨S1300000x64, .f32⟩
  | .hbm, ⟨52, _⟩ => ⟨S1300000x1, .f32⟩
  | .hbm, ⟨53, _⟩ => ⟨S1300000x64, .f32⟩
  | .hbm, ⟨54, _⟩ => ⟨S1300000x64, .f32⟩
  | .hbm, ⟨55, _⟩ => ⟨S_, .f32⟩
  | .hbm, ⟨56, _⟩ => ⟨S100000x64, .f32⟩
  | .hbm, ⟨57, _⟩ => ⟨S1300000x1, .i32⟩
  | .hbm, ⟨58, _⟩ => ⟨S100000x64, .f32⟩
  | .hbm, ⟨59, _⟩ => ⟨S_, .f32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S64, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S64, .f32⟩
  | .hbm, ⟨83, _⟩ => ⟨S1x64, .f32⟩
  | .hbm, ⟨84, _⟩ => ⟨S100000x64, .f32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S100000x64, .f32⟩
  | .hbm, ⟨95, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_call0_cst : Ref sig .tc := ⟨.hbm, 89, rfl⟩
abbrev main_call0_v0 : Ref sig .tc := ⟨.hbm, 90, rfl⟩
abbrev main_v69 : Ref sig .tc := ⟨.hbm, 91, rfl⟩
abbrev main_v70 : Ref sig .tc := ⟨.hbm, 92, rfl⟩
abbrev main_call1_cst : Ref sig .tc := ⟨.hbm, 93, rfl⟩
abbrev main_call1_v0 : Ref sig .tc := ⟨.hbm, 94, rfl⟩
abbrev main_v71 : Ref sig .tc := ⟨.hbm, 95, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  dot_S100000x64_S64x64_S100000x64_1_0_0_1_n_n_wf : DotDims.WF S100000x64 S64x64 S100000x64 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

class Facts : Prop extends Facts₀ where

variable [Facts]
-- ==== Proof.Region0.lean ====
import proofs.«170578_j4277787427661_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-- The first region's contraction record: rows by the shared axis, times the shared axis by columns. -/
private abbrev DD := dot_S10000x64_S64x64_S10000x64_1_0_0_1_n_n

private theorem lhs_0 (i : S10000x64.Idx) (q : DD.contr.Idx) : (DD.lhsIdx i q 0).val = (i 0).val := by
  unfold DotDims.lhsIdx
  rw [dif_neg (show ¬(0 : Fin S10000x64.rank) ∈ DD.lhsBatch by decide), dif_pos (show (0 : Fin S10000x64.rank) ∈ DD.lhsNonContracting by decide)]
  rfl
private theorem lhs_1 (i : S10000x64.Idx) (q : DD.contr.Idx) : (DD.lhsIdx i q 1).val = (q ⟨0, by decide⟩).val :=
  DD.lhsIdx_val_of_single rfl i q
private theorem rhs_0 (i : S10000x64.Idx) (q : DD.contr.Idx) : (DD.rhsIdx i q 0).val = (q ⟨0, by decide⟩).val :=
  DD.rhsIdx_val_of_single rfl i q
private theorem rhs_1 (i : S10000x64.Idx) (q : DD.contr.Idx) : (DD.rhsIdx i q 1).val = (i 1).val := by
  unfold DotDims.rhsIdx
  rw [dif_neg (show ¬(1 : Fin S64x64.rank) ∈ DD.rhsBatch by decide), dif_pos (show (1 : Fin S64x64.rank) ∈ DD.rhsNonContracting by decide)]
  rfl

private theorem pay_apply (x0 : FVec Ideal S10000x64 .f32) (x1 : FVec Ideal S64x64 .f32) (x2 : FVec Ideal S1x64 .f32)
    (r : Fin 10000) (d : Fin 64) :
    k0_pay1 x0 x1 x2 (ix2 r d)
      = (∑ k : Fin 64, x0 (ix2 r k) * x1 (ix2 k d)) + x2 (ix2 (0 : Fin 1) d) := by
  unfold k0_pay1
  rw [addf_apply, shapeCast_self]
  rw [broadcastTo_apply x2 broadcasts_S1x64_S10000x64 (ix2 r d) (ix2 (0 : Fin 1) d) (fun a => match a with
    | ⟨0, _⟩ => by show 0 = if (1 : Nat) = 1 then 0 else _; rw [if_pos rfl]
    | ⟨1, _⟩ => by show d.val = if (64 : Nat) = 1 then 0 else d.val; rw [if_neg (by decide)])]
  congr 1
  refine (Ideal.matmul_constant_zero_apply DD none _ _ (ix2 r d)).trans ?_
  rw [← Equiv.sum_comp (contrEquiv1 DD 64 rfl rfl).symm]
  refine Finset.sum_congr rfl fun k _ => ?_
  have hk := contrEquiv1_symm_val DD 64 rfl rfl k
  have el : DD.lhsIdx (ix2 r d) ((contrEquiv1 DD 64 rfl rfl).symm k) = ix2 r k := funext fun a => Fin.ext (by
    match a with
    | ⟨0, _⟩ => exact lhs_0 _ _
    | ⟨1, _⟩ => exact (lhs_1 _ _).trans hk)
  have er : DD.rhsIdx (ix2 r d) ((contrEquiv1 DD 64 rfl rfl).symm k) = ix2 k d := funext fun a => Fin.ext (by
    match a with
    | ⟨0, _⟩ => exact (rhs_0 _ _).trans hk
    | ⟨1, _⟩ => exact rhs_1 _ _)
  rw [el, er]
  rfl

variable (V : (c : Dev nD) → (b : Ref sig .tc) → Buf (Elt Ideal) ((c : Thread nD τ).loc b))

/-- The arrays the first region reads, and the one it writes, by their literal types. -/
abbrev xArr (c : Dev nD) : FVec Ideal S100000x64 .f32 := V c main_arg0
abbrev wArr (c : Dev nD) : FVec Ideal S64x64 .f32 := V c main_arg2
abbrev biasArr (c : Dev nD) : FVec Ideal S1x64 .f32 := V c main_v0
abbrev xwArr (c : Dev nD) : FVec Ideal S100000x64 .f32 := (dat0 (F := Ideal) V c).arrAt 3 cfg0.N

private theorem hz : (![0, 0] : Fin 2 → Nat) = fun _ => 0 := funext fun a => by fin_cases a <;> rfl

/-- The whole array the first region leaves: each row of the input times the weights, plus the bias row. -/
private def G (x : FVec Ideal S100000x64 .f32) (w : FVec Ideal S64x64 .f32) (b : FVec Ideal S1x64 .f32) :
    FVec Ideal S100000x64 .f32 :=
  fun i => (∑ k : Fin 64, x (ix2 (⟨(i 0).val, (i 0).isLt⟩ : Fin 100000) k) * w (ix2 k (⟨(i 1).val, (i 1).isLt⟩ : Fin 64)))
    + b (ix2 (0 : Fin 1) (⟨(i 1).val, (i 1).isLt⟩ : Fin 64))

/-- The printed index maps, decided over the grid: the input rows move with the output rows, point t holding block t;
    every other block index is zero. -/
private theorem idx_facts : ∀ t : Fin cfg0.N, win0_3.index t (0 : Fin 2) = t.val
    ∧ win0_3.index t (1 : Fin 2) = 0
    ∧ win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0 :=
  (by decide +kernel : ∀ t : Fin grid0.N, _)

/-- Block t of the input array, at row r and column k, is the array at row 10000 t + r and column k. -/
private theorem blk0_at (c : Dev nD) (t : Fin cfg0.N) (r : Fin 10000) (k : Fin 64) (i : S100000x64.Idx)
    (h0 : (i 0).val = t.val * 10000 + r.val) (h1 : (i 1).val = k.val) :
    iblk0 V c 0 t (ix2 r k) = xArr V c i := by
  obtain ⟨e30, e31, e00, e01, e10, e11, e20, e21⟩ := idx_facts t
  show V c main_arg0 (((cfg0.win 0).blk t).view.emb (ix2 r k)) = V c main_arg0 i
  refine congrArg _ (funext fun a => Fin.ext ?_)
  match a with
  | ⟨0, _⟩ => show win0_0.index t (0 : Fin 2) * 10000 + 1 * r.val = (i 0).val; omega
  | ⟨1, _⟩ => show win0_0.index t (1 : Fin 2) * 64 + 1 * k.val = (i 1).val; omega

/-- Every point's block of the weights is the whole array. -/
private theorem blk1_at (c : Dev nD) (t : Fin cfg0.N) (k : Fin 64) (d : Fin 64) (i : S64x64.Idx)
    (h0 : (i 0).val = k.val) (h1 : (i 1).val = d.val) :
    iblk0 V c 1 t (ix2 k d) = wArr V c i := by
  obtain ⟨e30, e31, e00, e01, e10, e11, e20, e21⟩ := idx_facts t
  show V c main_arg2 (((cfg0.win 1).blk t).view.emb (ix2 k d)) = V c main_arg2 i
  refine congrArg _ (funext fun a => Fin.ext ?_)
  match a with
  | ⟨0, _⟩ => show win0_1.index t (0 : Fin 2) * 64 + 1 * k.val = (i 0).val; omega
  | ⟨1, _⟩ => show win0_1.index t (1 : Fin 2) * 64 + 1 * d.val = (i 1).val; omega

/-- Every point's block of the bias row is the whole row. -/
private theorem blk2_at (c : Dev nD) (t : Fin cfg0.N) (z : Fin 1) (d : Fin 64) (i : S1x64.Idx)
    (h0 : (i 0).val = z.val) (h1 : (i 1).val = d.val) :
    iblk0 V c 2 t (ix2 z d) = biasArr V c i := by
  obtain ⟨e30, e31, e00, e01, e10, e11, e20, e21⟩ := idx_facts t
  show V c main_v0 (((cfg0.win 2).blk t).view.emb (ix2 z d)) = V c main_v0 i
  refine congrArg _ (funext fun a => Fin.ext ?_)
  match a with
  | ⟨0, _⟩ => show win0_2.index t (0 : Fin 2) * 1 + 1 * z.val = (i 0).val; omega
  | ⟨1, _⟩ => show win0_2.index t (1 : Fin 2) * 64 + 1 * d.val = (i 1).val; omega

/-- What point t writes back is block t of G of the arrays the region finds. -/
private theorem flushed_eq (c : Dev nD) (t : Fin cfg0.N) :
    (dat0 (F := Ideal) V c).flushed 3 t
      = ((cfg0.win 3).blk t).view.read (Elt Ideal) (G (xArr V c) (wArr V c) (biasArr V c)) := by
  show (cfg0.win 3).cut (grid0.coords t) ((dat0 V c).after 3 t) = _
  rw [after0_3]
  unfold out0_3
  rw [View.canon_unit_zero hz]
  simp only [View.ld_unit_zero (S := S10000x64) hz, View.ld_unit_zero (S := S64x64) hz, View.ld_unit_zero (S := S1x64) hz]
  obtain ⟨e30, e31, e00, e01, e10, e11, e20, e21⟩ := idx_facts t
  funext j
  have hj : (win0 3).xinj (grid0.coords t) j = ix2 (⟨(j 0).val, (j 0).isLt⟩ : Fin 10000) (⟨(j 1).val, (j 1).isLt⟩ : Fin 64) :=
    funext fun a => match a with | ⟨0, _⟩ => rfl | ⟨1, _⟩ => rfl
  show k0_pay1 (iblk0 V c 0 t) (iblk0 V c 1 t) (iblk0 V c 2 t) ((win0 3).xinj (grid0.coords t) j)
    = G (xArr V c) (wArr V c) (biasArr V c) (((cfg0.win 3).blk t).view.emb j)
  rw [hj, pay_apply]
  have g0 : ((((cfg0.win 3).blk t).view.emb j) 0).val = t.val * 10000 + (j 0).val := by
    show win0_3.index t (0 : Fin 2) * 10000 + 1 * (j 0).val = _; omega
  have g1 : ((((cfg0.win 3).blk t).view.emb j) 1).val = (j 1).val := by
    show win0_3.index t (1 : Fin 2) * 64 + 1 * (j 1).val = _; omega
  unfold G
  refine congrArg₂ (· + ·) (Finset.sum_congr rfl fun k _ => congrArg₂ (· * ·) ?_ ?_) ?_
  · exact blk0_at V c t _ k _ g0 rfl
  · exact blk1_at V c t k _ _ rfl g1
  · exact blk2_at V c t 0 _ _ rfl g1

/-- An index of the array is in point t's block iff each coordinate is in the block's range on its axis. -/
private theorem mem_blk (t : Fin cfg0.N) (i : S100000x64.Idx) :
    i ∈ ((cfg0.win 3).blk t).view.set
      ↔ ∀ a : Fin 2, win0_3.index t a * S10000x64.size a ≤ (i a).val
          ∧ (i a).val < win0_3.index t a * S10000x64.size a + S10000x64.size a := by
  show i ∈ ((View.whole main_v1).slice (win0_3.rect t)).set ↔ _
  rw [View.set_slice_whole, Rect.mem_set_unit]
  exact Iff.rfl

/-- Row n of the array is in the block of point n / 10000, which writes back: the ten blocks tile the array. -/
private theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨e30, e31, e00, e01, e10, e11, e20, e21⟩ := idx_facts t
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 64 ≤ (i 1).val ∧ (i 1).val < win0_3.index t (1 : Fin 2) * 64 + 64
    omega

/-- The array after the region is G of the arrays the region finds. -/
private theorem final (c : Dev nD) :
    (dat0 (F := Ideal) V c).arrAt 3 cfg0.N = G (xArr V c) (wArr V c) (biasArr V c) :=
  (dat0 V c).arrAt_eq_of_cover 3 _ (fun t _ => flushed_eq V c t) cover

theorem value (c : Dev nD) (n : Fin 100000) (d : Fin 64) :
    xwArr V c (ix2 n d)
      = (∑ k : Fin 64, xArr V c (ix2 n k) * wArr V c (ix2 k d)) + biasArr V c (ix2 (0 : Fin 1) d) := by
  show (dat0 (F := Ideal) V c).arrAt 3 cfg0.N (ix2 n d) = _
  rw [final]
  rfl

end Cert.KernelIdeal.Region0

end
-- ==== Proof.Region1.lean ====
import proofs.«170578_j4277787427661_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b))

/-- The array the second region reads, and the two it accumulates into, by their literal types. -/
abbrev aggArr (c : Dev nD) : FVec Ideal S100000x64 .f32 := V c main_v41
abbrev sumArr (c : Dev nD) : FVec Ideal S1x64 .f32 := (dat1 (F := Ideal) V c).arrAt 1 cfg1.N
abbrev sumsqArr (c : Dev nD) : FVec Ideal S1x64 .f32 := (dat1 (F := Ideal) V c).arrAt 2 cfg1.N

section Pieces
variable {F : FTy → Type} [FloatOps F]

/-- The zero offsets of every store and load of this body, as a constant function. -/
theorem off_zero : (![0, 0] : Fin 2 → Nat) = fun _ => 0 := funext fun a => by fin_cases a <;> rfl

/-- At a point that does not reset, the body leaves in the first accumulator its old contents `xo1` updated by the
    row block `x`: its one covering store's payload, whose loads read the whole buffers. -/
theorem out_B_1 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S10000x64 .f32) (xo1 xo2 : Vec F S1x64 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  sl_unfold_words
  rw [View.canon_unit_zero off_zero]
  simp only [View.readAt_eq_ld, h1.read_unread, h2.read_unread, View.ld_unit_zero (S := S10000x64) off_zero,
    View.ld_unit_zero (S := S1x64) off_zero]

/-- Likewise the second accumulator: its old contents `xo2` updated by the row block. -/
theorem out_B_2 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S10000x64 .f32) (xo1 xo2 : Vec F S1x64 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  sl_unfold_words
  rw [View.canon_unit_zero off_zero]
  simp only [View.readAt_eq_ld, h1.read_unread, h3.read_unread, View.ld_unit_zero (S := S10000x64) off_zero,
    View.ld_unit_zero (S := S1x64) off_zero]

/-- At the resetting point the body stores the zero row, reads it back, and leaves it updated by the row block. -/
theorem out_A_1 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S10000x64 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x64) off_zero, View.readCov_unit_zero (S := S1x64) _ off_zero]
  simp only [View.readAt_eq_ld, h1.read_unread, View.ld_unit_zero (S := S10000x64) off_zero]

/-- Likewise the second accumulator at the resetting point. -/
theorem out_A_2 (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S10000x64 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x64) off_zero, View.readCov_unit_zero (S := S1x64) _ off_zero]
  simp only [View.readAt_eq_ld, h1.read_unread, View.ld_unit_zero (S := S10000x64) off_zero]

end Pieces

/-- Row `r`, lane `d` of a block is where the lane reduction's inserted index points. -/
theorem lift_eq (h : S10000x64.Reduces [0] S64) (d : Fin 64) (r : Fin 10000) :
    h.lift (ix1 d) r = ix2 r d := by
  funext a
  match a with
  | ⟨0, _⟩ => rfl
  | ⟨1, _⟩ => rfl

/-- The reset row is zero at every lane. -/
theorem pay1_apply (d : Fin 64) : k1_pay1 (F := Ideal) (ix2 (0 : Fin 1) d) = 0 :=
  Ideal.ofBits_zero_f32

/-- So is the second accumulator's. -/
theorem pay2_apply (d : Fin 64) : k1_pay2 (F := Ideal) (ix2 (0 : Fin 1) d) = 0 :=
  Ideal.ofBits_zero_f32

/-- The first accumulator's update at lane `d`: the old entry plus the block's column sum. -/
theorem pay4_apply (x : Vec Ideal S10000x64 .f32) (acc : Vec Ideal S1x64 .f32) (d : Fin 64) :
    k1_pay4 (F := Ideal) x acc (ix2 (0 : Fin 1) d) = acc (ix2 (0 : Fin 1) d) + ∑ r : Fin 10000, x (ix2 r d) := by
  unfold k1_pay4 k1_pay3
  simp only [shapeCast_self]
  refine congrArg (acc (ix2 (0 : Fin 1) d) + ·) ?_
  refine (shapeCast_a_1a_apply _ shapeCasts_S64_S1x64 (0 : Fin 1) d).trans ?_
  refine (Ideal.multiReduction_add_single x 0x00000000#32 reduces_S10000x64_S64 (.inl rfl) rfl (ix1 d)).trans ?_
  exact Finset.sum_congr rfl fun r _ => congrArg x (lift_eq reduces_S10000x64_S64 d r)

/-- The second accumulator's update at lane `d`: the old entry plus the block's column sum of squares. -/
theorem pay5_apply (x : Vec Ideal S10000x64 .f32) (acc : Vec Ideal S1x64 .f32) (d : Fin 64) :
    k1_pay5 (F := Ideal) x acc (ix2 (0 : Fin 1) d)
      = acc (ix2 (0 : Fin 1) d) + ∑ r : Fin 10000, x (ix2 r d) * x (ix2 r d) := by
  unfold k1_pay5 k1_pay3
  simp only [shapeCast_self]
  refine congrArg (acc (ix2 (0 : Fin 1) d) + ·) ?_
  refine (shapeCast_a_1a_apply _ shapeCasts_S64_S1x64 (0 : Fin 1) d).trans ?_
  refine (Ideal.multiReduction_add_single (mulf x x) 0x00000000#32 reduces_S10000x64_S64 (.inl rfl) rfl (ix1 d)).trans ?_
  exact Finset.sum_congr rfl fun r _ => congrArg (fun j => x j * x j) (lift_eq reduces_S10000x64_S64 d r)

/-- The row block the region reads at point `t`, by its literal type. -/
abbrev rowBlk (c : Dev nD) (t : Fin cfg1.N) : Vec Ideal S10000x64 .f32 := iblk1 (F := Ideal) V c 0 t

/-- Column `d` of the array as a sequence over every natural: row `k`'s entry, zero past the last row. -/
def col (c : Dev nD) (d : Fin 64) (k : ℕ) : EReal :=
  if h : k < 100000 then aggArr V c (ix2 ⟨k, h⟩ d) else 0

/-- The block at point `t` starts at row block `t`, lane 0: decided once over the grid. -/
theorem blk_index : ∀ t : Fin cfg1.N, win1_0.index t 0 = t.val ∧ win1_0.index t 1 = 0 :=
  (by decide +kernel : ∀ t : Fin grid1.N, win1_0.index t 0 = t.val ∧ win1_0.index t 1 = 0)

/-- Row `r` of the block at point `t` is row `10000 t + r` of the array. -/
theorem rowBlk_apply (c : Dev nD) (t : Fin cfg1.N) (r : Fin 10000) (d : Fin 64) :
    rowBlk V c t (ix2 r d) = col V c d (10000 * t.val + r.val) := by
  have hN : t.val < 10 := lt_of_lt_of_eq t.isLt (show cfg1.N = 10 from N_1)
  have hk : 10000 * t.val + r.val < 100000 := by omega
  unfold col
  rw [dif_pos hk]
  unfold rowBlk iblk1
  rw [View.read_apply]
  show V c main_v41 _ = V c main_v41 _
  congr 1
  funext a
  apply Fin.ext
  match a with
  | ⟨0, _⟩ => show win1_0.index t 0 * 10000 + 1 * r.val = 10000 * t.val + r.val; rw [(blk_index t).1]; omega
  | ⟨1, _⟩ => show win1_0.index t 1 * 64 + 1 * d.val = d.val; rw [(blk_index t).2]; omega

/-- So the block's column sum is the column's sum over the block's rows of the array, -/
theorem rowBlk_sum (c : Dev nD) (t : Fin cfg1.N) (d : Fin 64) :
    ∑ r : Fin 10000, rowBlk V c t (ix2 r d) = ∑ r ∈ Finset.range 10000, col V c d (10000 * t.val + r) := by
  rw [Finset.sum_range]
  exact Finset.sum_congr rfl fun r _ => rowBlk_apply V c t r d

/-- and its column sum of squares the sum of the column's squares over those rows. -/
theorem rowBlk_sumsq (c : Dev nD) (t : Fin cfg1.N) (d : Fin 64) :
    ∑ r : Fin 10000, rowBlk V c t (ix2 r d) * rowBlk V c t (ix2 r d)
      = ∑ r ∈ Finset.range 10000, col V c d (10000 * t.val + r) * col V c d (10000 * t.val + r) := by
  rw [Finset.sum_range]
  exact Finset.sum_congr rfl fun r _ => by rw [rowBlk_apply V c t r d]

/-- At the resetting point each accumulator is left at its block's column sum: zero plus it. -/
theorem outs_reset (c : Dev nD) (t : Fin cfg1.N) (h0 : t.val % 10 = 0) (d : Fin 64) :
    (outsAt1 (F := Ideal) V c t.val t.isLt).1 (ix2 (0 : Fin 1) d) = ∑ r : Fin 10000, rowBlk V c t (ix2 r d)
    ∧ (outsAt1 (F := Ideal) V c t.val t.isLt).2 (ix2 (0 : Fin 1) d)
        = ∑ r : Fin 10000, rowBlk V c t (ix2 r d) * rowBlk V c t (ix2 r d) := by
  rw [outsAt1_A V c t h0]
  dsimp only
  constructor
  · refine (congrFun (out_A_1 (F := Ideal) c (grid1.coords t) (ms1_0 t) (hs1_0 t) (ms1_1 t) (hs1_1 t) (ms1_2 t) (hs1_2 t)
      ((hcond1_0 t).mpr h0) (rowBlk V c t)) (ix2 (0 : Fin 1) d)).trans ?_
    rw [pay4_apply, pay1_apply, zero_add]
  · refine (congrFun (out_A_2 (F := Ideal) c (grid1.coords t) (ms1_0 t) (hs1_0 t) (ms1_1 t) (hs1_1 t) (ms1_2 t) (hs1_2 t)
      ((hcond1_0 t).mpr h0) (rowBlk V c t)) (ix2 (0 : Fin 1) d)).trans ?_
    rw [pay5_apply, pay2_apply, zero_add]

/-- At every other point each accumulator is what the point before left plus its block's column sum. -/
theorem outs_step (c : Dev nD) (t : Fin cfg1.N) (h0 : ¬t.val % 10 = 0) (d : Fin 64) :
    (outsAt1 (F := Ideal) V c t.val t.isLt).1 (ix2 (0 : Fin 1) d)
      = (outsAt1 (F := Ideal) V c (t.val - 1) (Nat.lt_of_le_of_lt (Nat.sub_le _ _) t.isLt)).1 (ix2 (0 : Fin 1) d)
        + ∑ r : Fin 10000, rowBlk V c t (ix2 r d)
    ∧ (outsAt1 (F := Ideal) V c t.val t.isLt).2 (ix2 (0 : Fin 1) d)
      = (outsAt1 (F := Ideal) V c (t.val - 1) (Nat.lt_of_le_of_lt (Nat.sub_le _ _) t.isLt)).2 (ix2 (0 : Fin 1) d)
        + ∑ r : Fin 10000, rowBlk V c t (ix2 r d) * rowBlk V c t (ix2 r d) := by
  rw [outsAt1_B V c t h0]
  dsimp only
  constructor
  · refine (congrFun (out_B_1 (F := Ideal) c (grid1.coords t) (ms1_0 t) (hs1_0 t) (ms1_1 t) (hs1_1 t) (ms1_2 t) (hs1_2 t)
      (fun h => h0 ((hcond1_0 t).mp h)) (rowBlk V c t)
      (outsAt1 (F := Ideal) V c (t.val - 1) (Nat.lt_of_le_of_lt (Nat.sub_le _ _) t.isLt)).1
      (outsAt1 (F := Ideal) V c (t.val - 1) (Nat.lt_of_le_of_lt (Nat.sub_le _ _) t.isLt)).2) (ix2 (0 : Fin 1) d)).trans ?_
    rw [pay4_apply]
  · refine (congrFun (out_B_2 (F := Ideal) c (grid1.coords t) (ms1_0 t) (hs1_0 t) (ms1_1 t) (hs1_1 t) (ms1_2 t) (hs1_2 t)
      (fun h => h0 ((hcond1_0 t).mp h)) (rowBlk V c t)
      (outsAt1 (F := Ideal) V c (t.val - 1) (Nat.lt_of_le_of_lt (Nat.sub_le _ _) t.isLt)).1
      (outsAt1 (F := Ideal) V c (t.val - 1) (Nat.lt_of_le_of_lt (Nat.sub_le _ _) t.isLt)).2) (ix2 (0 : Fin 1) d)).trans ?_
    rw [pay5_apply]

/-- One more row block of a sum over the first rows. -/
theorem range_block (f : ℕ → EReal) (n : ℕ) :
    ∑ k ∈ Finset.range (10000 * (n + 1 + 1)), f k
      = ∑ k ∈ Finset.range (10000 * (n + 1)), f k + ∑ r ∈ Finset.range 10000, f (10000 * (n + 1) + r) := by
  rw [show 10000 * (n + 1 + 1) = 10000 * (n + 1) + 10000 by omega, Finset.sum_range_add]

/-- THE INVARIANT: after point `n` the accumulators hold, at lane `d`, column `d`'s sum and sum of squares over the rows
    below `10000 (n + 1)` — by induction on the point. -/
theorem outs_eq (c : Dev nD) (d : Fin 64) : ∀ (n : ℕ) (h : n < cfg1.N),
    (outsAt1 (F := Ideal) V c n h).1 (ix2 (0 : Fin 1) d) = ∑ k ∈ Finset.range (10000 * (n + 1)), col V c d k
    ∧ (outsAt1 (F := Ideal) V c n h).2 (ix2 (0 : Fin 1) d)
        = ∑ k ∈ Finset.range (10000 * (n + 1)), col V c d k * col V c d k
  | 0, h => by
    obtain ⟨e1, e2⟩ := outs_reset V c ⟨0, h⟩ rfl d
    refine ⟨e1.trans ?_, e2.trans ?_⟩
    · rw [rowBlk_sum V c ⟨0, h⟩ d]
      exact Finset.sum_congr rfl fun r _ => by rw [Nat.mul_zero, Nat.zero_add]
    · rw [rowBlk_sumsq V c ⟨0, h⟩ d]
      exact Finset.sum_congr rfl fun r _ => by rw [Nat.mul_zero, Nat.zero_add]
  | n + 1, h => by
    have hN : cfg1.N = 10 := N_1
    have hB : ¬(⟨n + 1, h⟩ : Fin cfg1.N).val % 10 = 0 := by dsimp only; omega
    obtain ⟨e1, e2⟩ := outs_step V c ⟨n + 1, h⟩ hB d
    obtain ⟨i1, i2⟩ := outs_eq c d n (Nat.lt_of_succ_lt h)
    refine ⟨e1.trans ?_, e2.trans ?_⟩
    · rw [rowBlk_sum V c ⟨n + 1, h⟩ d, range_block]
      exact congrArg (· + _) i1
    · rw [rowBlk_sumsq V c ⟨n + 1, h⟩ d, range_block]
      exact congrArg (· + _) i2

/-- The last point of the grid has number 9. -/
theorem nine_lt : 9 < cfg1.N := by rw [show cfg1.N = 10 from N_1]; decide

/-- What the two accumulators hold after the last point. -/
abbrev lastSum (c : Dev nD) : FVec Ideal S1x64 .f32 := (outsAt1 (F := Ideal) V c 9 nine_lt).1
abbrev lastSumsq (c : Dev nD) : FVec Ideal S1x64 .f32 := (outsAt1 (F := Ideal) V c 9 nine_lt).2

/-- Both output blocks sit at offset zero of their one-row arrays and span them, at the last point. -/
theorem out_block_1 : ∀ a : Fin 2, win1_1.index t1_9 a * win1_1.size a = 0 ∧ win1_1.xsize (grid1.coords t1_9) a = S1x64.size a := by
  decide +kernel
theorem out_block_2 : ∀ a : Fin 2, win1_2.index t1_9 a * win1_2.size a = 0 ∧ win1_2.xsize (grid1.coords t1_9) a = S1x64.size a := by
  decide +kernel

/-- The one write-back of the first accumulator, at the last point, writes what it then holds: its block is the array. -/
theorem flushed_sum (c : Dev nD) (t : Fin cfg1.N) (hf : (cfg1.win 1).flush t = true) :
    (dat1 (F := Ideal) V c).flushed 1 t = ((cfg1.win 1).blk t).view.read (Elt Ideal) (lastSum V c) := by
  have hN : cfg1.N = 10 := N_1
  have h9 : t.val = 9 := by have := (flush1_1 t).mp hf; have := t.isLt; omega
  obtain rfl : t = t1_9 := Fin.ext h9
  show (cfg1.win 1).cut (grid1.coords t1_9) ((dat1 (F := Ideal) V c).after 1 t1_9) = _
  rw [after1_1]
  have hz' : (fun a => win1_1.index t1_9 a * main_v42_0.ty.shape.size a) = fun _ => 0 :=
    funext fun a => (out_block_1 a).1
  exact (Memref.read_access_unit_zero (Elt Ideal) main_v42_0 hz' (fun a => by rw [congrFun hz' a]; simp) (lastSum V c)).symm

/-- Likewise the second accumulator's. -/
theorem flushed_sumsq (c : Dev nD) (t : Fin cfg1.N) (hf : (cfg1.win 2).flush t = true) :
    (dat1 (F := Ideal) V c).flushed 2 t = ((cfg1.win 2).blk t).view.read (Elt Ideal) (lastSumsq V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 (F := Ideal) V c).after 2 t1_9) = _
  rw [after1_2]
  have hz' : (fun a => win1_2.index t1_9 a * main_v42_1.ty.shape.size a) = fun _ => 0 :=
    funext fun a => (out_block_2 a).1
  exact (Memref.read_access_unit_zero (Elt Ideal) main_v42_1 hz' (fun a => by rw [congrFun hz' a]; simp) (lastSumsq V c)).symm

/-- So the first output array ends holding the first accumulator's last contents: the last point's block covers it. -/
theorem sumArr_eq (c : Dev nD) : sumArr V c = lastSum V c :=
  (dat1 (F := Ideal) V c).arrAt_eq_of_cover 1 (lastSum V c) (flushed_sum V c) fun i =>
    ⟨t1_9, (flush1_1 t1_9).mpr rfl, by
      show i ∈ ((View.whole main_v42_0).slice (win1_1.rect t1_9)).set
      rw [View.set_slice_whole, Rect.mem_set_unit]
      intro a
      show win1_1.index t1_9 a * win1_1.size a ≤ (i a : Nat)
        ∧ (i a : Nat) < win1_1.index t1_9 a * win1_1.size a + win1_1.xsize (grid1.coords t1_9) a
      rw [(out_block_1 a).1, (out_block_1 a).2, Nat.zero_add]
      exact ⟨Nat.zero_le _, (i a).isLt⟩⟩

/-- Likewise the second output array. -/
theorem sumsqArr_eq (c : Dev nD) : sumsqArr V c = lastSumsq V c :=
  (dat1 (F := Ideal) V c).arrAt_eq_of_cover 2 (lastSumsq V c) (flushed_sumsq V c) fun i =>
    ⟨t1_9, (flush1_2 t1_9).mpr rfl, by
      show i ∈ ((View.whole main_v42_1).slice (win1_2.rect t1_9)).set
      rw [View.set_slice_whole, Rect.mem_set_unit]
      intro a
      show win1_2.index t1_9 a * win1_2.size a ≤ (i a : Nat)
        ∧ (i a : Nat) < win1_2.index t1_9 a * win1_2.size a + win1_2.xsize (grid1.coords t1_9) a
      rw [(out_block_2 a).1, (out_block_2 a).2, Nat.zero_add]
      exact ⟨Nat.zero_le _, (i a).isLt⟩⟩

/-- A sum of the column sequence over the first 100000 naturals is the sum over the array's rows. -/
theorem col_sum (c : Dev nD) (d : Fin 64) (g : EReal → EReal) :
    ∑ k ∈ Finset.range 100000, g (col V c d k) = ∑ k : Fin 100000, g (aggArr V c (ix2 k d)) := by
  rw [Finset.sum_range]
  exact Finset.sum_congr rfl fun k _ => congrArg g (dif_pos k.isLt)

theorem sum_value (c : Dev nD) (d : Fin 64) :
    sumArr V c (ix2 (0 : Fin 1) d) = ∑ k : Fin 100000, aggArr V c (ix2 k d) := by
  refine (congrFun (sumArr_eq V c) (ix2 (0 : Fin 1) d)).trans ?_
  refine (outs_eq V c d 9 nine_lt).1.trans ?_
  exact col_sum V c d fun x => x

theorem sumsq_value (c : Dev nD) (d : Fin 64) :
    sumsqArr V c (ix2 (0 : Fin 1) d) = ∑ k : Fin 100000, aggArr V c (ix2 k d) * aggArr V c (ix2 k d) := by
  refine (congrFun (sumsqArr_eq V c) (ix2 (0 : Fin 1) d)).trans ?_
  refine (outs_eq V c d 9 nine_lt).2.trans ?_
  exact col_sum V c d fun x => x * x

end Cert.KernelIdeal.Region1

end
-- ==== Proof.Region2.lean ====
import proofs.«170578_j4277787427661_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The arrays the third region reads, and the one it writes, by their literal types. -/
abbrev aggArr (c : Dev nD) : FVec Ideal S100000x64 .f32 := V c main_v41
abbrev resArr (c : Dev nD) : FVec Ideal S100000x64 .f32 := V c main_arg0
abbrev scaleArr (c : Dev nD) : FVec Ideal S1x64 .f32 := V c main_v57
abbrev shiftArr (c : Dev nD) : FVec Ideal S1x64 .f32 := V c main_v58
abbrev outArr (c : Dev nD) : FVec Ideal S100000x64 .f32 := (dat2 (F := Ideal) V c).arrAt 4 cfg2.N

/-- The zero offsets of a whole-block rectangle are the constant zero function. -/
private theorem off_zero : (![0, 0] : Fin 2 → Nat) = fun _ => 0 := funext fun a => by fin_cases a <;> rfl

/-- The body's result at row `r`, column `d` of a block: the two one-row operands are read at their row 0. -/
private theorem body_apply (a : Vec Ideal S10000x64 .f32) (sc sh : Vec Ideal S1x64 .f32) (x : Vec Ideal S10000x64 .f32)
    (r : Fin 10000) (d : Fin 64) :
    k2_pay1 a sc sh x (ix2 r d)
      = max (max (a (ix2 r d) * sc (ix2 (0 : Fin 1) d) + sh (ix2 (0 : Fin 1) d)) 0 + x (ix2 r d)) 0 := by
  unfold k2_pay1
  simp only [maximumf_apply, addf_apply, mulf_apply, broadcast_apply, shapeCast_self, broadcastTo_1b_ab_apply]
  rw [show (Scalar.ofBits .f32 0x00000000#32 : Ideal .f32) = 0 from Ideal.ofBits_zero_f32]

/-- The whole output array as one function of the four arrays the region reads, index by index. -/
def G (agg res : FVec Ideal S100000x64 .f32) (sc sh : FVec Ideal S1x64 .f32) : FVec Ideal S100000x64 .f32 :=
  fun i => max (max (agg i * sc (ix2 (0 : Fin 1) (i 1)) + sh (ix2 (0 : Fin 1) (i 1))) 0 + res i) 0

/-- A block of the output is the same function of the blocks of the inputs, when the two big inputs' blocks sit in
    their arrays where the output's block sits in its own (`e`), a block's column being the array's column. -/
private theorem block_eq (a x : Vec Ideal S10000x64 .f32) (sc sh : Vec Ideal S1x64 .f32)
    (A X : FVec Ideal S100000x64 .f32) (SC SH : FVec Ideal S1x64 .f32) (e : S10000x64.Idx → S100000x64.Idx)
    (ha : ∀ j, a j = A (e j)) (hx : ∀ j, x j = X (e j)) (hsc : ∀ j, sc j = SC j) (hsh : ∀ j, sh j = SH j)
    (he : ∀ j, ((e j) 1 : ℕ) = (j 1 : ℕ)) (j : S10000x64.Idx) :
    k2_pay1 a sc sh x j = G A X SC SH (e j) := by
  obtain ⟨r, d, rfl⟩ : ∃ (r : Fin 10000) (d : Fin 64), j = ix2 r d := ⟨j 0, j 1, eq_ix2 j⟩
  rw [body_apply, ha, hx, hsc, hsh]
  unfold G
  have h1 : (e (ix2 r d)) 1 = d := Fin.ext (he _)
  rw [h1]

/-- The printed index maps, decided over the grid: the two big inputs' blocks move with the output's, whose block row
    is the point and block column 0; the two one-row inputs stay at block (0, 0). -/
private theorem idx_facts : ∀ t : Fin cfg2.N,
    win2_0.index t (0 : Fin 2) = win2_4.index t (0 : Fin 2) ∧ win2_0.index t (1 : Fin 2) = win2_4.index t (1 : Fin 2)
    ∧ win2_1.index t (0 : Fin 2) = win2_4.index t (0 : Fin 2) ∧ win2_1.index t (1 : Fin 2) = win2_4.index t (1 : Fin 2)
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of `G` of the arrays as the region finds them. -/
private theorem flushed_eq (c : Dev nD) (t : Fin cfg2.N) :
    (dat2 (F := Ideal) V c).flushed 4 t
      = ((cfg2.win 4).blk t).view.read (Elt Ideal) (G (aggArr V c) (resArr V c) (scaleArr V c) (shiftArr V c)) := by
  show (cfg2.win 4).cut (grid2.coords t) ((dat2 V c).after 4 t) = _
  rw [after2_4]
  unfold out2_4
  rw [View.canon_unit_zero off_zero]
  simp only [View.ld_unit_zero (S := S10000x64) off_zero, View.ld_unit_zero (S := S1x64) off_zero]
  obtain ⟨e0, e1, e2, e3, e4, e5, e6, e7, e8, e9⟩ := idx_facts t
  funext j
  show k2_pay1 (iblk2 V c 0 t) (iblk2 V c 2 t) (iblk2 V c 3 t) (iblk2 V c 1 t) j
    = G (aggArr V c) (resArr V c) (scaleArr V c) (shiftArr V c) (((cfg2.win 4).blk t).view.emb j)
  refine block_eq _ _ _ _ (aggArr V c) (resArr V c) (scaleArr V c) (shiftArr V c) (((cfg2.win 4).blk t).view.emb) ?_ ?_ ?_ ?_ ?_ j
  · intro y
    show V c main_v41 (((cfg2.win 0).blk t).view.emb y) = V c main_v41 (((cfg2.win 4).blk t).view.emb y)
    refine congrArg _ (funext fun a => Fin.ext ?_)
    match a with
    | ⟨0, _⟩ => show win2_0.index t (0 : Fin 2) * 10000 + 1 * (y 0).val = win2_4.index t (0 : Fin 2) * 10000 + 1 * (y 0).val; omega
    | ⟨1, _⟩ => show win2_0.index t (1 : Fin 2) * 64 + 1 * (y 1).val = win2_4.index t (1 : Fin 2) * 64 + 1 * (y 1).val; omega
  · intro y
    show V c main_arg0 (((cfg2.win 1).blk t).view.emb y) = V c main_arg0 (((cfg2.win 4).blk t).view.emb y)
    refine congrArg _ (funext fun a => Fin.ext ?_)
    match a with
    | ⟨0, _⟩ => show win2_1.index t (0 : Fin 2) * 10000 + 1 * (y 0).val = win2_4.index t (0 : Fin 2) * 10000 + 1 * (y 0).val; omega
    | ⟨1, _⟩ => show win2_1.index t (1 : Fin 2) * 64 + 1 * (y 1).val = win2_4.index t (1 : Fin 2) * 64 + 1 * (y 1).val; omega
  · intro y
    show V c main_v57 (((cfg2.win 2).blk t).view.emb y) = V c main_v57 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 64 + 1 * (y 1).val = (y 1).val; omega
  · intro y
    show V c main_v58 (((cfg2.win 3).blk t).view.emb y) = V c main_v58 y
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 64 + 1 * (y 1).val = (y 1).val; omega
  · intro y
    show win2_4.index t (1 : Fin 2) * 64 + 1 * (y 1).val = (y 1).val
    omega

/-- An index of the array is in point `t`'s block iff each coordinate is in the block's range on its axis. -/
private theorem mem_blk (t : Fin cfg2.N) (i : S100000x64.Idx) :
    i ∈ ((cfg2.win 4).blk t).view.set ↔ ∀ a : Fin 2, win2_4.index t a * S10000x64.size a ≤ (i a).val ∧ (i a).val < win2_4.index t a * S10000x64.size a + S10000x64.size a := by
  show i ∈ ((View.whole main_v59).slice (win2_4.rect t)).set ↔ _
  rw [View.set_slice_whole, Rect.mem_set_unit]
  exact Iff.rfl

/-- Every row block is some point's. -/
private theorem idx_onto : ∀ q : Fin 10, ∃ t : Fin cfg2.N, t.val = q.val :=
  fun q => ⟨⟨q.val, by rw [show cfg2.N = 10 from N_2]; exact q.isLt⟩, rfl⟩

/-- Every index of the array is in the block of the point its row falls in. -/
private theorem cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ := idx_onto ⟨(i 0).val / 10000, by omega⟩
  have ht' : t.val = (i 0).val / 10000 := ht
  obtain ⟨e0, e1, e2, e3, e4, e5, e6, e7, e8, e9⟩ := idx_facts t
  refine ⟨t, flush2_4 t, ?_⟩
  rw [mem_blk]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 64 ≤ (i 1).val ∧ (i 1).val < win2_4.index t (1 : Fin 2) * 64 + 64; omega

/-- The array after the region is `G` of the arrays the region finds. -/
private theorem final (c : Dev nD) :
    outArr V c = G (aggArr V c) (resArr V c) (scaleArr V c) (shiftArr V c) :=
  (dat2 (F := Ideal) V c).arrAt_eq_of_cover 4 (G (aggArr V c) (resArr V c) (scaleArr V c) (shiftArr V c))
    (fun t _ => flushed_eq V c t) cover

theorem value (c : Dev nD) (n : Fin 100000) (d : Fin 64) :
    outArr V c (ix2 n d)
      = max (max (aggArr V c (ix2 n d) * scaleArr V c (ix2 (0 : Fin 1) d) + shiftArr V c (ix2 (0 : Fin 1) d)) 0
              + resArr V c (ix2 n d)) 0 :=
  congrFun (final V c) (ix2 n d)

end Cert.KernelIdeal.Region2

end
-- ==== Proof.Spec.lean ====
/-
  The two batch-normalisation tails as functions of ONE column of the aggregated features, at the extended reals.

  A column `a : Fin 100000 → EReal` is one feature of the aggregated node features; `an` is its entry at the row
  being normalised, `xn` the residual input's entry, `g` and `b` the affine weights of that feature, `N` the
  row count as the programs spell it and `e` the variance's offset.

  * `kerTail`: the statistics come as the sum and the sum of squares; the variance is `E[a²] − E[a]²`; scale and
    shift are folded once per feature (`sc = g · r`, `sh = b − mean · sc`) and applied as `an · sc + sh`.
  * `refTail`: the mean is taken first, the variance is the mean of the squared deviations, and the row is
    normalised as `g · (an − mean) · r + b`.
  Both end in the two rectifiers around the residual sum.
-/
import Idealize.ShloMosaic.PureOps.Ideal

noncomputable section

namespace Cert.Bn

open Idealize.ShloMosaic
open scoped BigOperators

/-- The tail as the kernel's three stages compute it. -/
def kerTail (a : Fin 100000 → EReal) (an xn g b N e : EReal) : EReal :=
  let mean := Ideal.div (∑ k, a k) N
  let var := Ideal.div (∑ k, a k * a k) N - mean * mean
  let sc := g * Ideal.rsqrt (var + e)
  let sh := b - mean * sc
  max (max (an * sc + sh) 0 + xn) 0

/-- The tail as the reference computes it. -/
def refTail (a : Fin 100000 → EReal) (an xn g b N e : EReal) : EReal :=
  let mean := Ideal.div (0 + ∑ k, a k) N
  let var := Ideal.div (0 + ∑ k, (a k - mean) * (a k - mean)) N
  max (max (g * (an - mean) * Ideal.rsqrt (var + e) + b) 0 + xn) 0

end Cert.Bn

end
-- ==== Proof.RefValue.lean ====
/-
  The reference, read at one entry (n, d) of its result: everything after the aggregation is the tail `refTail` of
  column d of the aggregated features.  The aggregation itself (the degree count, its inverse square roots gathered
  along the edges, the gathered rows scaled and scattered back) is named ONCE as a function `aggOf` of the linear
  layer's output and of the edge list: both programs apply that same chain, so it is never opened here.
-/
import proofs.«170578_j4277787427661_1_alg».proof.Proof.Gen.ReferenceIdeal.Read
import proofs.«170578_j4277787427661_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open scoped BigOperators

/-- The normalised neighbour aggregation as a function of the node features `xw` and the edge list `x1`:
    the rows of `xw` gathered at the sources, scaled by the edge weights, summed at the targets. -/
def aggOf (xw : FVec Ideal S100000x64 .f32) (x1 : IVec S2x1200000 32) : FVec Ideal S100000x64 .f32 :=
  Host.scatterAdd scatter_S100000x64_S1300000x1_S1300000x64_1_0_0_1 (val_main_v41 (F := Ideal)) (val_main_v42 (F := Ideal) x1)
    (mulf (Host.gather gather_S100000x64_S1300000x1_S1300000x64_1_0_n_n_0_1_164 xw (val_main_v36 (F := Ideal) x1))
      (val_main_v39 (F := Ideal) x1))

/-- The reference's aggregated features are that function of its linear layer. -/
theorem agg_eq (x0 : FVec Ideal S100000x64 .f32) (x1 : IVec S2x1200000 32) (x2 : FVec Ideal S64x64 .f32) (x3 : FVec Ideal S64 .f32) :
    val_main_v43 (F := Ideal) x0 x1 x2 x3 = aggOf (val_main_v3 (F := Ideal) x0 x2 x3) x1 := rfl

/-! The index maps of the broadcasts and of the two column sums, at an entry given by its coordinates. -/

theorem row_of (n : Fin 100000) (d : Fin 64) : idx_main_v48 (ix2 n d) = ix2 (0 : Fin 1) d :=
  funext fun a => Fin.ext (by match a with | ⟨0, _⟩ => rfl | ⟨1, _⟩ => rfl)
theorem col_of (u : Fin 1) (d : Fin 64) : idx_main_v47 (ix2 u d) = ix1 d :=
  funext fun a => Fin.ext (by match a with | ⟨0, _⟩ => rfl)
theorem sum_of (d : Fin 64) (k : Fin 100000) : idx_main_v44 (ix1 d) k = ix2 k d :=
  funext fun a => Fin.ext (by match a with | ⟨0, _⟩ => rfl | ⟨1, _⟩ => rfl)

/-- The linear layer at an entry: the row of `x` against the column of `W`, plus the bias. -/
theorem xw_apply (x0 : FVec Ideal S100000x64 .f32) (x2 : FVec Ideal S64x64 .f32) (x3 : FVec Ideal S64 .f32)
    (n : Fin 100000) (d : Fin 64) :
    val_main_v3 (F := Ideal) x0 x2 x3 (ix2 n d) = (∑ k : Fin 64, x0 (ix2 n k) * x2 (ix2 k d)) + x3 (ix1 d) := by
  rw [val_main_v3_apply, val_main_v0_apply, val_main_v2_apply, val_main_v1_apply]
  have e1 : idx_main_v1 (idx_main_v2 (ix2 n d)) = ix1 d := funext fun a => Fin.ext (by match a with | ⟨0, _⟩ => rfl)
  have el : ∀ k : Fin 64, lidx_main_v0 (ix2 n d) k = ix2 n k := fun k => funext fun a => Fin.ext (by match a with | ⟨0, _⟩ => rfl | ⟨1, _⟩ => rfl)
  have er : ∀ k : Fin 64, ridx_main_v0 (ix2 n d) k = ix2 k d := fun k => funext fun a => Fin.ext (by match a with | ⟨0, _⟩ => rfl | ⟨1, _⟩ => rfl)
  simp only [e1, el, er, Ideal.addf_def]

section Tail

variable (x0 : FVec Ideal S100000x64 .f32) (x1 : IVec S2x1200000 32) (x2 : FVec Ideal S64x64 .f32) (x3 x4 x5 : FVec Ideal S64 .f32)

/-- Column d of the aggregated features. -/
abbrev colA (d : Fin 64) : Fin 100000 → EReal := fun k => val_main_v43 (F := Ideal) x0 x1 x2 x3 (ix2 k d)

/-- The batch mean of feature d. -/
theorem mean_apply (d : Fin 64) :
    val_main_v46 (F := Ideal) x0 x1 x2 x3 (ix1 d)
      = Ideal.div (0 + ∑ k, colA x0 x1 x2 x3 d k) (Ideal.ofBits .f32 0x47C35000#32) := by
  rw [val_main_v46_apply, val_main_v44_apply, val_main_v45_apply, val_main_cst_8_apply, val_main_cst_7_apply]
  have hs : (∑ k : Fin 100000, val_main_v43 (F := Ideal) x0 x1 x2 x3 (idx_main_v44 (ix1 d) k)) = ∑ k, colA x0 x1 x2 x3 d k :=
    Finset.sum_congr rfl fun k _ => congrArg _ (sum_of d k)
  rw [hs]
  show Ideal.div (Ideal.ofBits .f32 0x00000000#32 + _) _ = _
  rw [Ideal.ofBits_zero_f32]
  rfl

/-- The mean, broadcast along the rows (its two uses). -/
theorem mean_row (k : Fin 100000) (d : Fin 64) :
    val_main_v48 (F := Ideal) x0 x1 x2 x3 (ix2 k d) = val_main_v46 (F := Ideal) x0 x1 x2 x3 (ix1 d) := by
  rw [val_main_v48_apply, val_main_v47_apply]
  exact congrArg _ ((congrArg idx_main_v47 (row_of k d)).trans (col_of 0 d))

theorem mean_row' (k : Fin 100000) (d : Fin 64) :
    val_main_v55 (F := Ideal) x0 x1 x2 x3 (ix2 k d) = val_main_v46 (F := Ideal) x0 x1 x2 x3 (ix1 d) := by
  rw [val_main_v55_apply, val_main_v54_apply]
  exact congrArg _ ((congrArg idx_main_v54 (row_of k d)).trans (col_of 0 d))

/-- The batch variance of feature d: the mean of the squared deviations. -/
theorem var_apply (d : Fin 64) :
    val_main_v53 (F := Ideal) x0 x1 x2 x3 (ix1 d)
      = Ideal.div (0 + ∑ k, (colA x0 x1 x2 x3 d k - val_main_v46 (F := Ideal) x0 x1 x2 x3 (ix1 d))
                              * (colA x0 x1 x2 x3 d k - val_main_v46 (F := Ideal) x0 x1 x2 x3 (ix1 d)))
          (Ideal.ofBits .f32 0x47C35000#32) := by
  rw [val_main_v53_apply, val_main_v51_apply, val_main_v52_apply, val_main_cst_10_apply, val_main_cst_9_apply]
  have hs : (∑ k : Fin 100000, val_main_v50 (F := Ideal) x0 x1 x2 x3 (idx_main_v51 (ix1 d) k))
      = ∑ k, (colA x0 x1 x2 x3 d k - val_main_v46 (F := Ideal) x0 x1 x2 x3 (ix1 d))
              * (colA x0 x1 x2 x3 d k - val_main_v46 (F := Ideal) x0 x1 x2 x3 (ix1 d)) :=
    Finset.sum_congr rfl fun k _ => by
      rw [show idx_main_v51 (ix1 d) k = ix2 k d from sum_of d k, val_main_v50_apply, val_main_v49_apply, mean_row]
      rfl
  rw [hs]
  show Ideal.div (Ideal.ofBits .f32 0x00000000#32 + _) _ = _
  rw [Ideal.ofBits_zero_f32]
  rfl

/-- The inverse standard deviation of feature d, broadcast along the rows. -/
theorem rstd_row (n : Fin 100000) (d : Fin 64) :
    val_main_v64 (F := Ideal) x0 x1 x2 x3 (ix2 n d)
      = Ideal.rsqrt (val_main_v53 (F := Ideal) x0 x1 x2 x3 (ix1 d) + Ideal.ofBits .f32 0x3727C5AC#32) := by
  rw [val_main_v64_apply, val_main_v63_apply,
    show idx_main_v63 (idx_main_v64 (ix2 n d)) = ix1 d from (congrArg idx_main_v63 (row_of n d)).trans (col_of 0 d),
    val_main_v62_apply, val_main_v61_apply, val_main_v60_apply, val_main_cst_11_apply]
  rfl

theorem gamma_row (n : Fin 100000) (d : Fin 64) : val_main_v58 (F := Ideal) x4 (ix2 n d) = x4 (ix1 d) := by
  rw [val_main_v58_apply, val_main_v57_apply]
  exact congrArg _ ((congrArg idx_main_v57 (row_of n d)).trans (col_of 0 d))

theorem beta_row (n : Fin 100000) (d : Fin 64) : val_main_v67 (F := Ideal) x5 (ix2 n d) = x5 (ix1 d) := by
  rw [val_main_v67_apply, val_main_v66_apply]
  exact congrArg _ ((congrArg idx_main_v66 (row_of n d)).trans (col_of 0 d))

/-- The reference's result at (n, d) is the reference tail of column d of the aggregated features. -/
theorem result_apply (n : Fin 100000) (d : Fin 64) :
    val_main_v71 (F := Ideal) x0 x1 x2 x3 x4 x5 (ix2 n d)
      = Cert.Bn.refTail (colA x0 x1 x2 x3 d) (val_main_v43 (F := Ideal) x0 x1 x2 x3 (ix2 n d))
          (x0 (ix2 n d)) (x4 (ix1 d)) (x5 (ix1 d)) (Ideal.ofBits .f32 0x47C35000#32) (Ideal.ofBits .f32 0x3727C5AC#32) := by
  rw [val_main_v71_apply, val_main_v70_apply, val_main_v69_apply, val_main_v68_apply, val_main_v65_apply, val_main_v59_apply,
    val_main_v56_apply, mean_row', gamma_row, beta_row, rstd_row, var_apply, mean_apply,
    val_main_call0_v0_apply, val_main_call0_cst_apply, val_main_call1_v0_apply, val_main_call1_cst_apply]
  show max (max (x4 (ix1 d) * (val_main_v43 (F := Ideal) x0 x1 x2 x3 (ix2 n d) - _) * _ + x5 (ix1 d)) (Ideal.ofBits .f32 0x00000000#32) + x0 (ix2 n d))
      (Ideal.ofBits .f32 0x00000000#32) = _
  rw [Ideal.ofBits_zero_f32]
  rfl

end Tail

end Cert.ReferenceIdeal.RefValue

end
-- ==== Proof.KernelHost.lean ====
/-
  The kernel program's result array, read at one entry (n, d), back through its three regions and the host operations
  between them.  The first region leaves the linear layer `x · W + b`; the host stretch after it is the same
  normalised aggregation the reference applies (`aggOf`); the second region leaves the column sums and sums of
  squares of the aggregate; the stretch after it folds them, per feature, into a scale `γ · r` and a shift
  `β − mean · γ · r`; the third region applies them, rectifies, adds the input and rectifies again.  So the result
  at (n, d) is the kernel tail `kerTail` of column d of the aggregate.
-/
import proofs.«170578_j4277787427661_1_alg».proof.Proof.Gen.KernelIdeal.Frame
import proofs.«170578_j4277787427661_1_alg».proof.Proof.Region0
import proofs.«170578_j4277787427661_1_alg».proof.Proof.Region1
import proofs.«170578_j4277787427661_1_alg».proof.Proof.Region2
import proofs.«170578_j4277787427661_1_alg».proof.Proof.RefValue
import proofs.«170578_j4277787427661_1_alg».proof.Proof.Spec
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.Host

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)
open scoped BigOperators

variable (m : (ℓ : Loc nD τ sig) → Buf (Elt Ideal) ℓ) (ρ : Dev nD → PrngReg)

/-! ## The six arguments, by their literal types -/

abbrev x0 (c : Dev nD) : FVec Ideal S100000x64 .f32 := m ((c : Thread nD τ).loc main_arg0)
abbrev x1 (c : Dev nD) : IVec S2x1200000 32 := m ((c : Thread nD τ).loc main_arg1)
abbrev x2 (c : Dev nD) : FVec Ideal S64x64 .f32 := m ((c : Thread nD τ).loc main_arg2)
abbrev x3 (c : Dev nD) : FVec Ideal S64 .f32 := m ((c : Thread nD τ).loc main_arg3)
abbrev x4 (c : Dev nD) : FVec Ideal S64 .f32 := m ((c : Thread nD τ).loc main_arg4)
abbrev x5 (c : Dev nD) : FVec Ideal S64 .f32 := m ((c : Thread nD τ).loc main_arg5)

/-! ## The first region: the linear layer -/

theorem V1_arg0 (c : Dev nD) : V1 m ρ c main_arg0 = x0 m c := by
  show StableHlo.after hostOps0 (W0 m ρ c) (Proc.devRef .tc main_arg0) = _
  after_results
  first | done | rfl

theorem V1_arg2 (c : Dev nD) : V1 m ρ c main_arg2 = x2 m c := by
  show StableHlo.after hostOps0 (W0 m ρ c) (Proc.devRef .tc main_arg2) = _
  after_results
  first | done | rfl

/-- The bias row the first region reads is the bias vector with a unit axis in front. -/
theorem V1_bias (c : Dev nD) (d : Fin 64) : Region0.biasArr (V1 m ρ) c (ix2 (0 : Fin 1) d) = x3 m c (ix1 d) := by
  have e : Region0.biasArr (V1 m ρ) c = shapeCast S1x64 (x3 m c) shapeCasts_S64_S1x64 := by
    show StableHlo.after hostOps0 (W0 m ρ c) (Proc.devRef .tc main_v0) = _
    after_results
    first | done | rfl
  rw [e]
  exact shapeCast_a_1a_apply _ _ 0 d

/-- What the first region leaves in its result array. -/
abbrev xwK (c : Dev nD) : FVec Ideal S100000x64 .f32 := W2 m ρ c (Proc.devRef .tc main_v1)

theorem xwK_apply (c : Dev nD) (n : Fin 100000) (d : Fin 64) :
    xwK m ρ c (ix2 n d) = (∑ k : Fin 64, x0 m c (ix2 n k) * x2 m c (ix2 k d)) + x3 m c (ix1 d) := by
  have e : xwK m ρ c = Region0.xwArr (V1 m ρ) c := W2_arr m ρ c 3
  have ex : Region0.xArr (V1 m ρ) c = x0 m c := V1_arg0 m ρ c
  have ew : Region0.wArr (V1 m ρ) c = x2 m c := V1_arg2 m ρ c
  rw [e, Region0.value, V1_bias, ex, ew]

/-! ## The host stretch after it: the aggregation -/

/-- The edge list as the second stretch finds it. -/
abbrev eiK (c : Dev nD) : IVec S2x1200000 32 := W2 m ρ c (Proc.devRef .tc main_arg1)

theorem eiK_eq (c : Dev nD) : eiK m ρ c = x1 m c := by
  show W2 m ρ c (Proc.devRef .tc main_arg1) = _
  rw [W2_of_ne m ρ c main_arg1 (by decide)]
  show StableHlo.after hostOps0 (W0 m ρ c) (Proc.devRef .tc main_arg1) = _
  after_results
  first | done | rfl

/-- The aggregated features as the second region finds them. -/
abbrev aggK (c : Dev nD) : FVec Ideal S100000x64 .f32 := V3 m ρ c main_v41

set_option maxHeartbeats 8000000 in
set_option maxRecDepth 8192 in
/-- They are the reference's aggregation chain applied to the first region's result and the edge list. -/
theorem aggK_eq (c : Dev nD) : aggK m ρ c = Cert.ReferenceIdeal.RefValue.aggOf (xwK m ρ c) (eiK m ρ c) := by
  show StableHlo.after hostOps1 (W2 m ρ c) (Proc.devRef .tc main_v41) = _
  after_results_simp
  rfl

/-! ## The second region: the column sums of the aggregate -/

abbrev s1K (c : Dev nD) : FVec Ideal S1x64 .f32 := W4 m ρ c (Proc.devRef .tc main_v42_0)
abbrev s2K (c : Dev nD) : FVec Ideal S1x64 .f32 := W4 m ρ c (Proc.devRef .tc main_v42_1)

theorem s1K_apply (c : Dev nD) (d : Fin 64) :
    s1K m ρ c (ix2 (0 : Fin 1) d) = ∑ k : Fin 100000, aggK m ρ c (ix2 k d) := by
  have e : s1K m ρ c = Region1.sumArr (V3 m ρ) c := W4_arr m ρ c 1
  rw [e]
  exact Region1.sum_value (V3 m ρ) c d

theorem s2K_apply (c : Dev nD) (d : Fin 64) :
    s2K m ρ c (ix2 (0 : Fin 1) d) = ∑ k : Fin 100000, aggK m ρ c (ix2 k d) * aggK m ρ c (ix2 k d) := by
  have e : s2K m ρ c = Region1.sumsqArr (V3 m ρ) c := W4_arr m ρ c 2
  rw [e]
  exact Region1.sumsq_value (V3 m ρ) c d

/-! ## The host stretch after it: scale and shift per feature -/

/-- The affine weights reach the third stretch as launched: nothing before it writes them. -/
theorem W4_arg4 (c : Dev nD) : W4 m ρ c (Proc.devRef .tc main_arg4) = x4 m c := by
  have h6 := W6_main_arg4 m ρ c
  rw [W6_of_ne m ρ c main_arg4 (by decide)] at h6
  have h5 : W5 m ρ c (Proc.devRef .tc main_arg4) = W4 m ρ c (Proc.devRef .tc main_arg4) := by
    show StableHlo.after hostOps2 (W4 m ρ c) (Proc.devRef .tc main_arg4) = _
    after_results
    first | done | rfl
  exact h5.symm.trans h6

theorem W4_arg5 (c : Dev nD) : W4 m ρ c (Proc.devRef .tc main_arg5) = x5 m c := by
  have h6 := W6_main_arg5 m ρ c
  rw [W6_of_ne m ρ c main_arg5 (by decide)] at h6
  have h5 : W5 m ρ c (Proc.devRef .tc main_arg5) = W4 m ρ c (Proc.devRef .tc main_arg5) := by
    show StableHlo.after hostOps2 (W4 m ρ c) (Proc.devRef .tc main_arg5) = _
    after_results
    first | done | rfl
  exact h5.symm.trans h6

/-- The affine weights as the third stretch finds them, by their literal types. -/
abbrev g4K (c : Dev nD) : FVec Ideal S64 .f32 := W4 m ρ c (Proc.devRef .tc main_arg4)
abbrev b5K (c : Dev nD) : FVec Ideal S64 .f32 := W4 m ρ c (Proc.devRef .tc main_arg5)

abbrev scaleK (c : Dev nD) : FVec Ideal S1x64 .f32 := Region2.scaleArr (V5 m ρ) c
abbrev shiftK (c : Dev nD) : FVec Ideal S1x64 .f32 := Region2.shiftArr (V5 m ρ) c

/-- The batch mean of feature d as the kernel program forms it. -/
def meanK (c : Dev nD) (d : Fin 64) : EReal :=
  Ideal.div (s1K m ρ c (ix2 (0 : Fin 1) d)) (Ideal.ofBits .f32 0x47C35000#32)

/-- The scale of feature d: the weight times the inverse standard deviation. -/
def scK (c : Dev nD) (d : Fin 64) : EReal :=
  x4 m c (ix1 d) * Ideal.rsqrt ((Ideal.div (s2K m ρ c (ix2 (0 : Fin 1) d)) (Ideal.ofBits .f32 0x47C35000#32)
      - meanK m ρ c d * meanK m ρ c d) + Ideal.ofBits .f32 0x3727C5AC#32)

set_option maxHeartbeats 8000000 in
theorem scaleK_apply (c : Dev nD) (d : Fin 64) : Region2.scaleArr (V5 m ρ) c (ix2 (0 : Fin 1) d) = scK m ρ c d := by
  have e : Region2.scaleArr (V5 m ρ) c = shapeCast S1x64
      (mulf (g4K m ρ c)
        (Host.rsqrt (addf
          (subf (Host.divf (shapeCast S64 (s2K m ρ c) shapeCasts_S1x64_S64) (broadcastInDim S64 ![] bcast_S_S64 (constant (F := Ideal) S_ .f32 0x47C35000#32)))
            (mulf (Host.divf (shapeCast S64 (s1K m ρ c) shapeCasts_S1x64_S64) (broadcastInDim S64 ![] bcast_S_S64 (constant (F := Ideal) S_ .f32 0x47C35000#32)))
              (Host.divf (shapeCast S64 (s1K m ρ c) shapeCasts_S1x64_S64) (broadcastInDim S64 ![] bcast_S_S64 (constant (F := Ideal) S_ .f32 0x47C35000#32)))))
          (broadcastInDim S64 ![] bcast_S_S64 (constant (F := Ideal) S_ .f32 0x3727C5AC#32)))))
      shapeCasts_S64_S1x64 := by
    show StableHlo.after hostOps2 (W4 m ρ c) (Proc.devRef .tc main_v57) = _
    after_results_simp
    rfl
  rw [e, shapeCast_a_1a_apply]
  show (g4K m ρ c) (ix1 d)
      * Ideal.rsqrt ((Ideal.div (shapeCast S64 (s2K m ρ c) shapeCasts_S1x64_S64 (ix1 d)) (Ideal.ofBits .f32 0x47C35000#32)
          - Ideal.div (shapeCast S64 (s1K m ρ c) shapeCasts_S1x64_S64 (ix1 d)) (Ideal.ofBits .f32 0x47C35000#32)
            * Ideal.div (shapeCast S64 (s1K m ρ c) shapeCasts_S1x64_S64 (ix1 d)) (Ideal.ofBits .f32 0x47C35000#32))
        + Ideal.ofBits .f32 0x3727C5AC#32) = _
  rw [shapeCast_1a_a_apply, shapeCast_1a_a_apply, show g4K m ρ c (ix1 d) = x4 m c (ix1 d) from congrFun (W4_arg4 m ρ c) (ix1 d)]
  rfl

set_option maxHeartbeats 8000000 in
theorem shiftK_apply (c : Dev nD) (d : Fin 64) :
    Region2.shiftArr (V5 m ρ) c (ix2 (0 : Fin 1) d) = x5 m c (ix1 d) - meanK m ρ c d * scK m ρ c d := by
  have e : Region2.shiftArr (V5 m ρ) c = shapeCast S1x64
      (subf (b5K m ρ c)
        (mulf (Host.divf (shapeCast S64 (s1K m ρ c) shapeCasts_S1x64_S64) (broadcastInDim S64 ![] bcast_S_S64 (constant (F := Ideal) S_ .f32 0x47C35000#32)))
          (mulf (g4K m ρ c)
            (Host.rsqrt (addf
              (subf (Host.divf (shapeCast S64 (s2K m ρ c) shapeCasts_S1x64_S64) (broadcastInDim S64 ![] bcast_S_S64 (constant (F := Ideal) S_ .f32 0x47C35000#32)))
                (mulf (Host.divf (shapeCast S64 (s1K m ρ c) shapeCasts_S1x64_S64) (broadcastInDim S64 ![] bcast_S_S64 (constant (F := Ideal) S_ .f32 0x47C35000#32)))
                  (Host.divf (shapeCast S64 (s1K m ρ c) shapeCasts_S1x64_S64) (broadcastInDim S64 ![] bcast_S_S64 (constant (F := Ideal) S_ .f32 0x47C35000#32)))))
              (broadcastInDim S64 ![] bcast_S_S64 (constant (F := Ideal) S_ .f32 0x3727C5AC#32)))))))
      shapeCasts_S64_S1x64 := by
    show StableHlo.after hostOps2 (W4 m ρ c) (Proc.devRef .tc main_v58) = _
    after_results_simp
    rfl
  rw [e, shapeCast_a_1a_apply]
  show (b5K m ρ c) (ix1 d)
      - Ideal.div (shapeCast S64 (s1K m ρ c) shapeCasts_S1x64_S64 (ix1 d)) (Ideal.ofBits .f32 0x47C35000#32)
        * ((g4K m ρ c) (ix1 d)
          * Ideal.rsqrt ((Ideal.div (shapeCast S64 (s2K m ρ c) shapeCasts_S1x64_S64 (ix1 d)) (Ideal.ofBits .f32 0x47C35000#32)
              - Ideal.div (shapeCast S64 (s1K m ρ c) shapeCasts_S1x64_S64 (ix1 d)) (Ideal.ofBits .f32 0x47C35000#32)
                * Ideal.div (shapeCast S64 (s1K m ρ c) shapeCasts_S1x64_S64 (ix1 d)) (Ideal.ofBits .f32 0x47C35000#32))
            + Ideal.ofBits .f32 0x3727C5AC#32)) = _
  rw [shapeCast_1a_a_apply, shapeCast_1a_a_apply, show g4K m ρ c (ix1 d) = x4 m c (ix1 d) from congrFun (W4_arg4 m ρ c) (ix1 d), show b5K m ρ c (ix1 d) = x5 m c (ix1 d) from congrFun (W4_arg5 m ρ c) (ix1 d)]
  rfl

/-! ## The third region -/

/-- The aggregate reaches the third region as the second found it: the second region only reads it and the stretch
    between writes other buffers. -/
theorem V5_agg (c : Dev nD) : V5 m ρ c main_v41 = aggK m ρ c := by
  show StableHlo.after hostOps2 (W4 m ρ c) (Proc.devRef .tc main_v41) = _
  after_results
  exact (W4_arr m ρ c 0).trans (((dat1 (V3 m ρ) c).arrAt_in 0 rfl _).trans (A_eq1 (V3 m ρ) c 0))

/-- The residual input reaches the third region as launched. -/
theorem V5_x (c : Dev nD) : V5 m ρ c main_arg0 = x0 m c :=
  ((W6_arr m ρ c 1).trans (((dat2 (V5 m ρ) c).arrAt_in 1 rfl _).trans (A_eq2 (V5 m ρ) c 1))).symm.trans (W6_main_arg0 m ρ c)

/-- The result array of the whole program. -/
abbrev resK (c : Dev nD) : FVec Ideal S100000x64 .f32 := W6 m ρ c (Proc.devRef .tc main_v59)

/-- The kernel program's result at (n, d) is the kernel tail of column d of the aggregate. -/
theorem kernel_value (c : Dev nD) (n : Fin 100000) (d : Fin 64) :
    resK m ρ c (ix2 n d)
      = Cert.Bn.kerTail (fun k => aggK m ρ c (ix2 k d)) (aggK m ρ c (ix2 n d)) (x0 m c (ix2 n d)) (x4 m c (ix1 d)) (x5 m c (ix1 d))
          (Ideal.ofBits .f32 0x47C35000#32) (Ideal.ofBits .f32 0x3727C5AC#32) := by
  have e : resK m ρ c = Region2.outArr (V5 m ρ) c := W6_arr m ρ c 4
  have ea : Region2.aggArr (V5 m ρ) c = aggK m ρ c := V5_agg m ρ c
  have ex : Region2.resArr (V5 m ρ) c = x0 m c := V5_x m ρ c
  rw [e, Region2.value, ea, ex, scaleK_apply, shiftK_apply]
  unfold Cert.Bn.kerTail scK meanK
  rw [s1K_apply, s2K_apply]

end Cert.KernelIdeal.Host

end
-- ==== Proof.TailLaw.lean ====
import proofs.«170578_j4277787427661_1_alg».proof.Proof.Spec

noncomputable section

namespace Cert.Bn

open Idealize.ShloMosaic
open scoped BigOperators

/-- The coercion of the reals into the extended reals commutes with finite sums. -/
private theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert i s hi ih => rw [Finset.sum_insert hi, Finset.sum_insert hi, ih, EReal.coe_add]

/-- The mean of the squared deviations is the mean of the squares minus the squared mean, the divisor being
    the number of terms. -/
private theorem var_id (a : Fin 100000 → ℝ) (m : ℝ) (hm : m = (∑ k, a k) * (1 / 100000)) :
    (∑ k, (a k - m) * (a k - m)) * (1 / 100000) = (∑ k, a k * a k) * (1 / 100000) - m * m := by
  have h1 : ∀ k, (a k - m) * (a k - m) = a k * a k - 2 * m * a k + m * m := fun k => by ring
  have hS : (∑ k, a k) = 100000 * m := by rw [hm]; ring
  rw [Finset.sum_congr rfl (fun k _ => h1 k), Finset.sum_add_distrib, Finset.sum_sub_distrib,
    ← Finset.mul_sum, Finset.sum_const, Finset.card_univ, Fintype.card_fin, nsmul_eq_mul, hS]
  push_cast
  ring

theorem tail_eq (a : Fin 100000 → ℝ) (an xn g b e : ℝ) (he : 0 < e) :
    kerTail (fun k => ((a k : ℝ) : EReal)) (an : EReal) (xn : EReal) (g : EReal) (b : EReal) ((100000 : ℝ) : EReal) (e : EReal)
      = refTail (fun k => ((a k : ℝ) : EReal)) (an : EReal) (xn : EReal) (g : EReal) (b : EReal) ((100000 : ℝ) : EReal) (e : EReal) := by
  have hN : (100000 : ℝ) ≠ 0 := by norm_num
  -- the mean, the two spellings of the variance, and the reciprocal root, as reals
  obtain ⟨m, hm⟩ : ∃ m : ℝ, m = (∑ k, a k) * (1 / 100000) := ⟨_, rfl⟩
  obtain ⟨v, hv⟩ : ∃ v : ℝ, v = (∑ k, (a k - m) * (a k - m)) * (1 / 100000) := ⟨_, rfl⟩
  have hv' : (∑ k, a k * a k) * (1 / 100000) - m * m = v := by rw [hv]; exact (var_id a m hm).symm
  have hv0 : 0 ≤ v := by
    rw [hv]; exact mul_nonneg (Finset.sum_nonneg (fun k _ => mul_self_nonneg _)) (by norm_num)
  have hpos : 0 < v + e := by linarith
  have hr : Ideal.rsqrt (((v + e : ℝ)) : EReal) = (((Real.sqrt (v + e))⁻¹ : ℝ) : EReal) := by
    rw [Ideal.rsqrt_coe, if_neg (not_lt.mpr hpos.le), if_neg hpos.ne']
  -- the three sums are real
  have e1 : (∑ k, ((a k : ℝ) : EReal)) = ((∑ k, a k : ℝ) : EReal) := coe_sum _ _
  have e2 : (∑ k, ((a k : ℝ) : EReal) * ((a k : ℝ) : EReal)) = ((∑ k, a k * a k : ℝ) : EReal) := by
    rw [← coe_sum]; exact Finset.sum_congr rfl (fun k _ => (EReal.coe_mul _ _).symm)
  have e3 : (∑ k, (((a k : ℝ) : EReal) - (m : EReal)) * (((a k : ℝ) : EReal) - (m : EReal)))
      = ((∑ k, (a k - m) * (a k - m) : ℝ) : EReal) := by
    rw [← coe_sum]
    exact Finset.sum_congr rfl (fun k _ => by rw [EReal.coe_mul, EReal.coe_sub])
  have hmean : Ideal.div (∑ k, ((a k : ℝ) : EReal)) ((100000 : ℝ) : EReal) = (m : EReal) := by
    rw [Ideal.div_coe hN, e1, ← EReal.coe_mul, hm]
  have hk : kerTail (fun k => ((a k : ℝ) : EReal)) (an : EReal) (xn : EReal) (g : EReal) (b : EReal) ((100000 : ℝ) : EReal) (e : EReal)
      = max (max (((an * (g * (Real.sqrt (v + e))⁻¹) + (b - m * (g * (Real.sqrt (v + e))⁻¹)) : ℝ)) : EReal) 0 + (xn : EReal)) 0 := by
    unfold kerTail
    dsimp only
    rw [hmean, Ideal.div_coe hN, e2, ← EReal.coe_mul, ← EReal.coe_mul, ← EReal.coe_sub, hv', ← EReal.coe_add, hr]
    simp only [← EReal.coe_mul, ← EReal.coe_sub, ← EReal.coe_add]
  have hrf : refTail (fun k => ((a k : ℝ) : EReal)) (an : EReal) (xn : EReal) (g : EReal) (b : EReal) ((100000 : ℝ) : EReal) (e : EReal)
      = max (max (((g * (an - m) * (Real.sqrt (v + e))⁻¹ + b : ℝ)) : EReal) 0 + (xn : EReal)) 0 := by
    unfold refTail
    dsimp only
    rw [zero_add, zero_add, hmean, e3, Ideal.div_coe hN, ← EReal.coe_mul, ← hv, ← EReal.coe_add, hr]
    simp only [← EReal.coe_mul, ← EReal.coe_sub, ← EReal.coe_add]
  rw [hk, hrf]
  have : an * (g * (Real.sqrt (v + e))⁻¹) + (b - m * (g * (Real.sqrt (v + e))⁻¹))
      = g * (an - m) * (Real.sqrt (v + e))⁻¹ + b := by ring
  rw [this]

end Cert.Bn

end
-- ==== Proof.Consts.lean ====
/-
  The float literals both programs spell, as the extended reals their words denote: the unit weight of an
  edge (1), the number of nodes the batch statistics divide by (100000) and the variance's offset (a positive
  dyadic close to 1e-5).  One module unfolds the bit patterns, once.
-/
import Idealize.ShloMosaic.PureOps.Ideal

noncomputable section

namespace Cert.Bn.Consts

open Idealize.ShloMosaic

/-- The word of `1.0` denotes the real one. -/
theorem ofBits_one : Ideal.ofBits .f32 0x3F800000#32 = ((1 : ℝ) : EReal) := by
  simp [Ideal.ofBits, Ideal.ieee, -EReal.coe_mul]; norm_num

/-- The word of `1.0e5` denotes the real hundred thousand: the divisor IS the number of rows. -/
theorem ofBits_rows : Ideal.ofBits .f32 0x47C35000#32 = ((100000 : ℝ) : EReal) := by
  simp [Ideal.ofBits, Ideal.ieee, -EReal.coe_mul]; norm_num

/-- The variance's offset: the float nearest to 1e-5, a positive dyadic rational. -/
def eps : ℝ := 10995116 / 1099511627776

theorem eps_pos : 0 < eps := by unfold eps; norm_num

theorem ofBits_eps : Ideal.ofBits .f32 0x3727C5AC#32 = ((eps : ℝ) : EReal) := by
  simp [Ideal.ofBits, Ideal.ieee, -EReal.coe_mul, eps]; norm_num

end Cert.Bn.Consts

end
-- ==== Proof.DegPos.lean ====
import proofs.«170578_j4277787427661_1_alg».proof.Proof.Gen.ReferenceIdeal.Read
import proofs.«170578_j4277787427661_1_alg».proof.Proof.Consts
import Idealize.ShloMosaic.Lib.ValueIdx
import Idealize.ShloMosaic.PureOps.Ideal.Laws

noncomputable section

namespace Cert.ReferenceIdeal.DegPos

open Cert.ReferenceIdeal Cert.ReferenceIdeal.Gen Cert.ReferenceIdeal.Read
open Idealize.ShloMosaic Idealize.ShloMosaic.TcCoe Idealize.ShloMosaic.ValueIdx
open scoped BigOperators

/-- A finite sum of ones is the number of its terms. -/
private theorem sum_one {ι : Type} (s : Finset ι) (f : ι → EReal) (h : ∀ i ∈ s, f i = ((1 : ℝ) : EReal)) :
    ∑ i ∈ s, f i = ((s.card : ℝ) : EReal) := by
  classical
  induction s using Finset.induction_on with
  | empty => simp
  | insert a s ha ih =>
    rw [Finset.sum_insert ha, h a (Finset.mem_insert_self a s), ih (fun i hi => h i (Finset.mem_insert_of_mem hi)),
      Finset.card_insert_of_notMem ha, ← EReal.coe_add]
    congr 1
    push_cast
    ring

/-- An accumulating scatter of ones into zero, at an element some update lands on, is a positive real (the
    number of updates that land there). -/
private theorem scatterAdd_ones_pos {s si su : Shape} (d : ScatterDims s si su) {w : Nat} (x : FVec Ideal s .f32) (idx : IVec si w)
    (upd : FVec Ideal su .f32) (i : s.Idx) (hx : x i = 0) (hu : ∀ j, upd j = ((1 : ℝ) : EReal)) (j₀ : su.Idx)
    (hj : d.resultIdx? j₀ idx = some i) :
    ∃ r : ℝ, 0 < r ∧ Host.scatterAdd d x idx upd i = (r : EReal) := by
  show ∃ r : ℝ, 0 < r ∧ Ideal.hostScatterAdd d x idx upd i = (r : EReal)
  unfold Ideal.hostScatterAdd
  rw [hx, zero_add, sum_one _ _ (fun j _ => hu j)]
  refine ⟨_, ?_, rfl⟩
  exact_mod_cast Finset.card_pos.2 ⟨j₀, Finset.mem_filter.2 ⟨Finset.mem_univ _, hj⟩⟩

/-- Where the degree scatter's update `n` lands: the element its index word names, read signed. -/
private theorem landing (idx : IVec S1300000x1 32) (n : Fin 1300000) (i : Fin 100000)
    (h : (idx (ix2 n (0 : Fin 1))).toInt = (i.val : Int)) :
    scatter_S100000_S1300000x1_S1300000_n_0_0_1.resultIdx? (ix1 n) idx = some (ix1 i) := by
  have hs : ∀ a, scatter_S100000_S1300000x1_S1300000_n_0_0_1.start (ix1 n) idx a = (i.val : Int) := by
    intro a
    obtain rfl : a = 0 := Subsingleton.elim _ _
    unfold ScatterDims.start
    rw [dif_pos (show (0 : Fin 1) ∈ scatter_S100000_S1300000x1_S1300000_n_0_0_1.scatterDimsToOperandDims from List.mem_singleton.mpr rfl)]
    have hsi : scatter_S100000_S1300000x1_S1300000_n_0_0_1.siIdx (ix1 n) ⟨List.idxOf (0 : Fin 1) scatter_S100000_S1300000x1_S1300000_n_0_0_1.scatterDimsToOperandDims,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi, h]
  have hw : ∀ a, scatter_S100000_S1300000x1_S1300000_n_0_0_1.window (ix1 n) a = 0 := by
    intro a
    obtain rfl : a = 0 := Subsingleton.elim _ _
    unfold ScatterDims.window
    rw [dif_neg (show ¬ (0 : Fin 1) ∈ scatter_S100000_S1300000x1_S1300000_n_0_0_1.sKept by decide)]
  unfold ScatterDims.resultIdx?
  rw [dif_pos (fun a => by
    rw [hs a, hw a]
    obtain rfl : a = 0 := Subsingleton.elim _ _
    have := i.isLt
    constructor
    · omega
    · show (i.val : Int) + ((0 : Nat) : Int) < ((100000 : Nat) : Int); omega)]
  congr 1
  funext a
  obtain rfl : a = 0 := Subsingleton.elim _ _
  refine Fin.ext ?_
  show (scatter_S100000_S1300000x1_S1300000_n_0_0_1.start (ix1 n) idx 0 + scatter_S100000_S1300000x1_S1300000_n_0_0_1.window (ix1 n) 0).toNat = i.val
  rw [hs, hw]; omega
/-- The target array's self-loop entry: position `1200000 + i` of the concatenation holds the word of `i`. -/
private theorem dst_loop (x1 : IVec S2x1200000 32) (i : Fin 100000) :
    val_main_v10 (F := Ideal) x1 (ix1 (⟨1200000 + i.val, by omega⟩ : Fin 1300000)) = BitVec.ofNat 32 i.val := by
  unfold val_main_v10
  refine (concatenate_pair_apply_right (0 : Fin S1300000.rank) (val_main_v9 (F := Ideal) x1) (val_main_v4 (F := Ideal))
    concatenates_S1200000_S100000_S1300000_d0 (ix1 (⟨1200000 + i.val, by omega⟩ : Fin 1300000)) rfl rfl (ix1 i)
    (fun b hb => absurd (Subsingleton.elim _ _) hb) ?_).trans ?_
  · show i.val + 1200000 = 1200000 + i.val
    omega
  · rfl

/-- The word of a node number below 100000 reads, signed, as that number. -/
private theorem toInt_node (i : Fin 100000) : (BitVec.ofNat 32 i.val).toInt = (i.val : Int) := by
  have hi := i.isLt
  have hn : (BitVec.ofNat 32 i.val).toNat = i.val := by
    rw [BitVec.toNat_ofNat]; exact Nat.mod_eq_of_lt (by omega)
  rw [BitVec.toInt_eq_toNat_cond, hn, if_pos (by omega)]

/-- The degree scatter starts from zero. -/
private theorem v12_zero (i : S100000.Idx) : val_main_v12 (F := Ideal) i = 0 := by
  rw [val_main_v12_apply, val_main_cst_0_apply]; exact Ideal.ofBits_zero_f32

/-- Every update of the degree scatter is one. -/
private theorem v11_one (j : S1300000.Idx) : val_main_v11 (F := Ideal) j = ((1 : ℝ) : EReal) := by
  rw [val_main_v11_apply, val_main_cst_apply]; exact Cert.Bn.Consts.ofBits_one

/-- The index word the degree scatter reads for the self-loop of node `i` is `i`. -/
private theorem idx_loop (x1 : IVec S2x1200000 32) (i : Fin 100000) :
    (val_main_v13 (F := Ideal) x1 (ix2 (⟨1200000 + i.val, by omega⟩ : Fin 1300000) (0 : Fin 1))).toInt = (i.val : Int) := by
  rw [val_main_v13_apply]
  have e : idx_main_v13 (ix2 (⟨1200000 + i.val, by omega⟩ : Fin 1300000) (0 : Fin 1))
      = ix1 (⟨1200000 + i.val, by omega⟩ : Fin 1300000) := by
    funext a
    match a with
    | ⟨0, _⟩ => rfl
  rw [e, dst_loop, toInt_node]

/-- Every node's degree is a positive real, whatever the edge list holds: its self-loop is counted. -/
theorem deg_pos (x1 : IVec S2x1200000 32) (i : Fin 100000) :
    ∃ r : ℝ, 0 < r ∧ val_main_v14 (F := Ideal) x1 (ix1 i) = (r : EReal) := by
  unfold val_main_v14
  exact scatterAdd_ones_pos scatter_S100000_S1300000x1_S1300000_n_0_0_1 (val_main_v12 (F := Ideal)) (val_main_v13 (F := Ideal) x1)
    (val_main_v11 (F := Ideal)) (ix1 i) (v12_zero _) v11_one (ix1 (⟨1200000 + i.val, by omega⟩ : Fin 1300000))
    (landing _ _ _ (idx_loop x1 i))

end Cert.ReferenceIdeal.DegPos

end
-- ==== Proof.AggReal.lean ====
import proofs.«170578_j4277787427661_1_alg».proof.Proof.Gen.ReferenceIdeal.Read
import proofs.«170578_j4277787427661_1_alg».proof.Proof.Consts
import proofs.«170578_j4277787427661_1_alg».proof.Proof.DegPos
import Idealize.ShloMosaic.Lib.ValueIdx
import Idealize.ShloMosaic.PureOps.Ideal.Laws

noncomputable section

namespace Cert.ReferenceIdeal.AggReal

open Cert.ReferenceIdeal Cert.ReferenceIdeal.Gen Cert.ReferenceIdeal.Read
open Idealize.ShloMosaic Idealize.ShloMosaic.TcCoe Idealize.ShloMosaic.ValueIdx
open scoped BigOperators

/-- A finite sum of reals is a real. -/
private theorem sum_real {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨ra, hra⟩ := h a (Finset.mem_insert_self a s)
    obtain ⟨rs, hrs⟩ := ih (fun i hi => h i (Finset.mem_insert_of_mem hi))
    exact ⟨ra + rs, by rw [Finset.sum_insert ha, hra, hrs, EReal.coe_add]⟩

/-- The linear layer of real inputs is real-valued. -/
theorem xw_real (x0 : FVec Ideal S100000x64 .f32) (x2 : FVec Ideal S64x64 .f32) (x3 : FVec Ideal S64 .f32)
    (h0 : ∀ i, ∃ r : ℝ, x0 i = (r : EReal)) (h2 : ∀ i, ∃ r : ℝ, x2 i = (r : EReal)) (h3 : ∀ i, ∃ r : ℝ, x3 i = (r : EReal)) :
    ∀ i, ∃ r : ℝ, val_main_v3 (F := Ideal) x0 x2 x3 i = (r : EReal) := by
  intro i
  rw [val_main_v3_apply, val_main_v0_apply, val_main_v2_apply, val_main_v1_apply]
  obtain ⟨rb, hrb⟩ := h3 (idx_main_v1 (idx_main_v2 i))
  obtain ⟨rs, hrs⟩ := sum_real Finset.univ (fun k => x0 (lidx_main_v0 i k) * x2 (ridx_main_v0 i k)) (fun k _ => by
    obtain ⟨a, ha⟩ := h0 (lidx_main_v0 i k)
    obtain ⟨b, hb⟩ := h2 (ridx_main_v0 i k)
    exact ⟨a * b, by rw [ha, hb, EReal.coe_mul]⟩)
  exact ⟨rs + rb, by rw [Ideal.addf_def, hrs, hrb, EReal.coe_add]⟩

/-- An accumulating scatter of real updates into a real operand is real-valued. -/
private theorem scatterAdd_real {s si su : Shape} (d : ScatterDims s si su) {w : Nat} (x : FVec Ideal s .f32) (idx : IVec si w)
    (upd : FVec Ideal su .f32) (hx : ∀ i, ∃ r : ℝ, x i = (r : EReal)) (hu : ∀ j, ∃ r : ℝ, upd j = (r : EReal)) :
    ∀ i, ∃ r : ℝ, Host.scatterAdd d x idx upd i = (r : EReal) := by
  intro i
  obtain ⟨a, ha⟩ := hx i
  obtain ⟨b, hb⟩ := sum_real (Finset.univ.filter (fun j => d.resultIdx? j idx = some i)) upd (fun j _ => hu j)
  refine ⟨a + b, ?_⟩
  show Ideal.hostScatterAdd d x idx upd i = _
  unfold Ideal.hostScatterAdd
  rw [ha, hb, EReal.coe_add]

/-- The inverse square root of every degree is a real. -/
private theorem dinv_real (x1 : IVec S2x1200000 32) : ∀ i, ∃ r : ℝ, val_main_v15 (F := Ideal) x1 i = (r : EReal) := by
  intro i
  obtain ⟨n, rfl⟩ : ∃ n : Fin 100000, i = ix1 n := ⟨i 0, eq_ix1 i⟩
  obtain ⟨r, hr, h⟩ := DegPos.deg_pos x1 n
  refine ⟨(Real.sqrt r)⁻¹, ?_⟩
  rw [val_main_v15_apply, h, Ideal.hostUnary_rsqrt_def, Ideal.rsqrt_coe, if_neg (not_lt.2 hr.le), if_neg hr.ne']

/-- The normalised aggregation of a real-valued feature array is real-valued, whatever the edge list holds:
    every node has its self-loop, so every degree is a positive real. -/
theorem agg_real (x0 : FVec Ideal S100000x64 .f32) (x1 : IVec S2x1200000 32) (x2 : FVec Ideal S64x64 .f32) (x3 : FVec Ideal S64 .f32)
    (hxw : ∀ i, ∃ r : ℝ, val_main_v3 (F := Ideal) x0 x2 x3 i = (r : EReal)) :
    ∀ i, ∃ r : ℝ, val_main_v43 (F := Ideal) x0 x1 x2 x3 i = (r : EReal) := by
  have hdinv := dinv_real x1
  -- a gather reads an entry of its operand, whatever the indices
  have h22 : ∀ j, ∃ r : ℝ, val_main_v22 (F := Ideal) x1 j = (r : EReal) := fun j => by
    unfold val_main_v22 Host.gather; exact hdinv _
  have h29 : ∀ j, ∃ r : ℝ, val_main_v29 (F := Ideal) x1 j = (r : EReal) := fun j => by
    unfold val_main_v29 Host.gather; exact hdinv _
  have h30 : ∀ j, ∃ r : ℝ, val_main_v30 (F := Ideal) x1 j = (r : EReal) := fun j => by
    obtain ⟨a, ha⟩ := h22 j
    obtain ⟨b, hb⟩ := h29 j
    exact ⟨a * b, by rw [val_main_v30_apply, ha, hb, Ideal.mulf_def, EReal.coe_mul]⟩
  -- the two broadcasts of the edge weights read one of them
  have h39 : ∀ j, ∃ r : ℝ, val_main_v39 (F := Ideal) x1 j = (r : EReal) := fun j => by
    rw [val_main_v39_apply, val_main_v38_apply]; exact h30 _
  have h37 : ∀ j, ∃ r : ℝ, val_main_v37 (F := Ideal) x0 x1 x2 x3 j = (r : EReal) := fun j => by
    unfold val_main_v37 Host.gather; exact hxw _
  have h40 : ∀ j, ∃ r : ℝ, val_main_v40 (F := Ideal) x0 x1 x2 x3 j = (r : EReal) := fun j => by
    obtain ⟨a, ha⟩ := h37 j
    obtain ⟨b, hb⟩ := h39 j
    exact ⟨a * b, by rw [val_main_v40_apply, ha, hb, Ideal.mulf_def, EReal.coe_mul]⟩
  have h41 : ∀ i, ∃ r : ℝ, val_main_v41 (F := Ideal) i = (r : EReal) := fun i =>
    ⟨0, by rw [val_main_v41_apply, val_main_cst_6_apply]; exact Ideal.ofBits_zero_f32⟩
  unfold val_main_v43
  exact scatterAdd_real scatter_S100000x64_S1300000x1_S1300000x64_1_0_0_1 (val_main_v41 (F := Ideal)) (val_main_v42 (F := Ideal) x1)
    (val_main_v40 (F := Ideal) x0 x1 x2 x3) h41 h40

end Cert.ReferenceIdeal.AggReal

end
-- ==== Proof.PreReal.lean ====
import proofs.«170578_j4277787427661_1_alg».proof.Proof.Gen.Pre_finite_inputs
import Idealize.ShloMosaic.Lib.ReduceAll
import Idealize.ShloMosaic.Lib.ValueIdx
import Idealize.ShloMosaic.PureOps.Ideal.Laws

noncomputable section

namespace Cert.Bn.PreReal

open Idealize.ShloMosaic Idealize.ShloMosaic.ValueIdx
open Cert.Pre_finite_inputs Cert.Pre_finite_inputs.Gen

/-- The scalar shape has one index. -/
private instance subsingleton_scalar_idx : Subsingleton S_.Idx := ⟨fun a b => funext fun d => d.elim0⟩

/-- The pattern `0x7F800000` denotes `+∞`. -/
private theorem ofBits_inf : Ideal.ofBits .f32 0x7F800000#32 = (⊤ : EReal) := by
  simp [Ideal.ofBits, Ideal.ieee]

/-- On one value: `|x| < +∞` says `x` is a real number (neither infinity satisfies it). -/
private theorem real_of_abs_lt_inf (x : EReal)
    (h : Ideal.cmp .olt (max x (-x)) (Ideal.ofBits .f32 0x7F800000#32) = 1#1) : ∃ r : ℝ, x = (r : EReal) := by
  rw [ofBits_inf] at h
  unfold Ideal.cmp at h
  induction x using EReal.rec with
  | bot => simp at h
  | coe r => exact ⟨r, rfl⟩
  | top => simp at h

/-- One conjunct of the precondition: `all(|x| < +∞)` over every axis being 1 says every entry of `x` is real. -/
private theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
        (constantI S_ 1 1#1) hr hu ix0 = 1#1) (i : s.Idx) : ∃ r : ℝ, x i = (r : EReal) :=
  real_of_abs_lt_inf (x i) (Host.reduce_andi_all _ _ hr hu ix0 e i)

/-- Under `finite_inputs` every float argument holds real numbers only. -/
theorem real_of_pre (x0 : FVec Ideal S100000x64 .f32) (x1 : IVec S2x1200000 32) (x2 : FVec Ideal S64x64 .f32)
    (x3 x4 x5 : FVec Ideal S64 .f32) (h : fn (F := Ideal) x0 x1 x2 x3 x4 x5 = fun _ => 1#1) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) := by
  have h0 := congrFun h ix0
  dsimp only [fn, fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all x0 _ _ _ e0, real_of_all x2 _ _ _ e2, real_of_all x3 _ _ _ e3, real_of_all x4 _ _ _ e4,
    real_of_all x5 _ _ _ e5⟩

end Cert.Bn.PreReal

end
-- ==== Proof.Bridge.lean ====
/-
  The two programs' results are one array.  Both are a batch-normalisation tail of the SAME aggregated features:
  the kernel program's first region leaves the reference's linear layer, entry by entry, and the aggregation chain
  is the same function of it.  Under the precondition every float input is real, hence so are the linear layer and
  (every node having its self-loop, so every degree a positive real) the aggregate; and on a real column the two
  tails agree: the variance is the mean of squares minus the squared mean, and the folded scale and shift apply
  the same affine map.
-/
import proofs.«170578_j4277787427661_1_alg».proof.Proof.KernelHost
import proofs.«170578_j4277787427661_1_alg».proof.Proof.RefValue
import proofs.«170578_j4277787427661_1_alg».proof.Proof.TailLaw
import proofs.«170578_j4277787427661_1_alg».proof.Proof.AggReal
import proofs.«170578_j4277787427661_1_alg».proof.Proof.PreReal
import proofs.«170578_j4277787427661_1_alg».proof.Proof.Consts

noncomputable section

namespace Cert.Bridge

open Idealize.ShloMosaic Idealize.ShloMosaic.TcCoe Idealize.SL.Sem Idealize.ShloMosaic.ValueIdx
open Cert.KernelIdeal Cert.KernelIdeal.Gen Cert.KernelIdeal.Host
open Cert.ReferenceIdeal.Read Cert.ReferenceIdeal.RefValue
open scoped BigOperators

variable (m : (ℓ : Loc nD τ sig) → Buf (Elt Ideal) ℓ) (ρ : Dev nD → PrngReg)

/-- The first region's result is the reference's linear layer of the same arguments. -/
theorem xwK_eq (c : Dev nD) : xwK m ρ c = val_main_v3 (F := Ideal) (x0 m c) (x2 m c) (x3 m c) := by
  funext i
  obtain ⟨n, d, rfl⟩ : ∃ (n : Fin 100000) (d : Fin 64), i = ix2 n d := ⟨i 0, i 1, eq_ix2 i⟩
  rw [xwK_apply, xw_apply]

/-- So the aggregate the kernel program normalises is the reference's. -/
theorem aggK_eq' (c : Dev nD) : aggK m ρ c = val_main_v43 (F := Ideal) (x0 m c) (x1 m c) (x2 m c) (x3 m c) := by
  rw [aggK_eq, eiK_eq, xwK_eq, ← agg_eq]

/-- Under the precondition the kernel program's result array is the reference's result of the same arguments. -/
theorem result_eq (c : Dev nD)
    (hpre : Cert.Pre_finite_inputs.fn (F := Ideal) (x0 m c) (x1 m c) (x2 m c) (x3 m c) (x4 m c) (x5 m c) = fun _ => 1#1) :
    resK m ρ c = val_main_v71 (F := Ideal) (x0 m c) (x1 m c) (x2 m c) (x3 m c) (x4 m c) (x5 m c) := by
  obtain ⟨h0, h2, h3, h4, h5⟩ := Cert.Bn.PreReal.real_of_pre _ _ _ _ _ _ hpre
  have hA := Cert.ReferenceIdeal.AggReal.agg_real (x0 m c) (x1 m c) (x2 m c) (x3 m c)
    (Cert.ReferenceIdeal.AggReal.xw_real (x0 m c) (x2 m c) (x3 m c) h0 h2 h3)
  choose a ha using hA
  funext i
  obtain ⟨n, d, rfl⟩ : ∃ (n : Fin 100000) (d : Fin 64), i = ix2 n d := ⟨i 0, i 1, eq_ix2 i⟩
  rw [kernel_value, result_apply, aggK_eq']
  obtain ⟨xn, hxn⟩ := h0 (ix2 n d)
  obtain ⟨g, hg⟩ := h4 (ix1 d)
  obtain ⟨b, hb⟩ := h5 (ix1 d)
  have hcol : (fun k : Fin 100000 => val_main_v43 (F := Ideal) (x0 m c) (x1 m c) (x2 m c) (x3 m c) (ix2 k d))
      = fun k => ((a (ix2 k d) : ℝ) : EReal) := funext fun k => ha _
  show Cert.Bn.kerTail (fun k : Fin 100000 => val_main_v43 (F := Ideal) (x0 m c) (x1 m c) (x2 m c) (x3 m c) (ix2 k d)) _ _ _ _ _ _
     = Cert.Bn.refTail (fun k : Fin 100000 => val_main_v43 (F := Ideal) (x0 m c) (x1 m c) (x2 m c) (x3 m c) (ix2 k d)) _ _ _ _ _ _
  rw [hcol, ha (ix2 n d), hxn, hg, hb, Cert.Bn.Consts.ofBits_rows, Cert.Bn.Consts.ofBits_eps]
  exact Cert.Bn.tail_eq (fun k => a (ix2 k d)) (a (ix2 n d)) xn g b Cert.Bn.Consts.eps Cert.Bn.Consts.eps_pos

end Cert.Bridge

end
-- ==== Proof.lean ====
/-
  A graph-convolution residual block against its jnp reference, over the extended reals.

  Both programs compute  relu(relu(BN(agg) ) + x)  where  agg  is the symmetric-normalised neighbour aggregation
  (self-loops included) of the linear layer  x · W + b,  and BN normalises each feature by the batch statistics of
  agg.  The kernel program runs three tiled regions (the linear layer; the column sums and sums of squares of agg;
  the normalisation with a per-feature scale and shift folded beforehand) around the host's aggregation, which is
  the reference's own chain of operations.  The frames of the two kernel programs are the generated ones; the
  reference's is its run with the result dropped; nothing was rewritten by the idealization.  The value claim:
  the kernel program's result array (read back region by region) and the reference's result are the same function
  of the arguments wherever the float arguments are finite.
-/
import proofs.«170578_j4277787427661_1_alg».proof.Defs
import proofs.«170578_j4277787427661_1_alg».proof.Proof.Gen.Kernel
import proofs.«170578_j4277787427661_1_alg».proof.Proof.Gen.Kernel.Skeleton
import proofs.«170578_j4277787427661_1_alg».proof.Proof.Gen.Kernel.Launch
import proofs.«170578_j4277787427661_1_alg».proof.Proof.Gen.Kernel.Points
import proofs.«170578_j4277787427661_1_alg».proof.Proof.Gen.Kernel.Frame
import proofs.«170578_j4277787427661_1_alg».proof.Proof.Gen.KernelIdeal
import proofs.«170578_j4277787427661_1_alg».proof.Proof.Gen.KernelIdeal.Skeleton
import proofs.«170578_j4277787427661_1_alg».proof.Proof.Gen.KernelIdeal.Launch
import proofs.«170578_j4277787427661_1_alg».proof.Proof.Gen.KernelIdeal.Points
import proofs.«170578_j4277787427661_1_alg».proof.Proof.Gen.KernelIdeal.Frame
import proofs.«170578_j4277787427661_1_alg».proof.Proof.Gen.ReferenceIdeal
import proofs.«170578_j4277787427661_1_alg».proof.Proof.Gen.ReferenceIdeal.Run
import proofs.«170578_j4277787427661_1_alg».proof.Proof.Gen.ReferenceIdeal.Read
import proofs.«170578_j4277787427661_1_alg».proof.Proof.Gen.Pre_finite_inputs
import proofs.«170578_j4277787427661_1_alg».proof.Proof.KernelRun
import proofs.«170578_j4277787427661_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end, the kernel program's result array at what its regions and host stretches leave there, the
    reference's at its operations' term of arguments that agree; under the precondition the two are one array. -/
theorem algebraic : Cert.algebraic_KernelIdeal_ReferenceIdeal := by
  intro m ρ m' ρ' hpre hagree
  refine ⟨fun c => Cert.KernelIdeal.Host.resK m ρ c, Cert.KernelIdeal.Run.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v71_eq, (hagree c).1, (hagree c).2.1, (hagree c).2.2.1, (hagree c).2.2.2.1,
    (hagree c).2.2.2.2.1, (hagree c).2.2.2.2.2]
  exact (Cert.Bridge.result_eq m ρ c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
